-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S384 : Shape := ⟨1, ![384]⟩
abbrev S384x128 : Shape := ⟨2, ![384, 128]⟩
abbrev S128 : Shape := ⟨1, ![128]⟩
abbrev S128x128 : Shape := ⟨2, ![128, 128]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S384 : S_.BroadcastsInDim S384 (![] : Fin 0 → Fin S384.rank)
  reducesTo_S384_S_d0 : S384.ReducesTo [0] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg7 : FVec F S128 .f32) (main_arg8 : FVec F S128 .f32) (main_arg9 : FVec F S128x128 .f32) (main_arg10 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg4 : FVec F S384 .f32) (main_arg5 : FVec F S384x128 .f32) (main_arg6 : FVec F S128 .f32) (main_arg7 : FVec F S128 .f32) (main_arg8 : FVec F S128 .f32) (main_arg9 : FVec F S128x128 .f32) (main_arg10 : FVec F S128 .f32) (main_v13 : IVec S_ 1) (main_v16 : IVec S384 1) : IVec S_ 1 :=
  let main_c_5 : IVec S_ 1 := constantI S_ 1 1#1
  let main_v17 : IVec S_ 1 := (fun x v => Host.reduce IntOp.andi x v reducesTo_S384_S_d0 h_S_) main_v16 main_c_5
  let main_v18 : IVec S_ 1 := andi main_v13 main_v17
  let main_v19 : FVec F S384 .f32 := Host.absf main_arg4
  let main_cst_6 : FVec F S_ .f32 := constant S_ .f32 0x7F800000#32
  let main_v20 : FVec F S384 .f32 := broadcastInDim S384 ![] bcast_S_S384 main_cst_6
  let main_v21 : IVec S384 1 := cmpf .olt main_v19 main_v20
  let main_c_7 : IVec S_ 1 := constantI S_ 1 1#1
  let main_v22 : IVec S_ 1 := (fun x v => Host.reduce IntOp.andi x v reducesTo_S384_S_d0 h_S_) main_v21 main_c_7
  let main_v23 : IVec S_ 1 := andi main_v18 main_v22
  let main_v24 : FVec F S384x128 .f32 := Host.absf main_arg5
  let main_cst_8 : FVec F S_ .f32 := constant S_ .f32 0x7F800000#32
  let main_v25 : FVec F S384x128 .f32 := broadcastInDim S384x128 ![] bcast_S_S384x128 main_cst_8
  let main_v26 : IVec S384x128 1 := cmpf .olt main_v24 main_v25
  let main_c_9 : IVec S_ 1 := constantI S_ 1 1#1
  let main_v27 : IVec S_ 1 := (fun x v => Host.reduce IntOp.andi x v reducesTo_S384x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S262144x128 .f32) (main_arg1 : FVec F S262144x128 .f32) (main_arg2 : FVec F S262144x128 .f32) (main_arg3 : FVec F S384 .f32) (main_arg4 : FVec F S384 .f32) (main_arg5 : FVec F S384x128 .f32) (main_arg6 : FVec F S128 .f32) (main_arg7 : FVec F S128 .f32) (main_arg8 : FVec F S128 .f32) (main_arg9 : FVec F S128x128 .f32) (main_arg10 : FVec F S128 .f32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S262144x128 .f32 := Host.absf main_arg1
  let main_cst_0 : FVec F S_ .f32 := constant S_ .f32 0x7F800000#32
  let main_v5 : FVec F S262144x128 .f32 := broadcastInDim S262144x128 ![] bcast_S_S262144x128 main_cst_0
  let main_v6 : IVec S262144x128 1 := cmpf .olt main_v4 main_v5
  let main_c_1 : IVec S_ 1 := constantI S_ 1 1#1
  let main_v7 : IVec S_ 1 := (fun x v => Host.reduce IntOp.andi x v reducesTo_S262144x128_S_d0_1 h_S_) main_v6 main_c_1
  let main_v8 : IVec S_ 1 := andi main_v3 main_v7
  let main_v9 : FVec F S262144x128 .f32 := Host.absf main_arg2
  let main_cst_2 : FVec F S_ .f32 := constant S_ .f32 0x7F800000#32
  let main_v10 : FVec F S262144x128 .f32 := broadcastInDim S262144x128 ![] bcast_S_S262144x128 main_cst_2
  let main_v11 : IVec S262144x128 1 := cmpf .olt main_v9 main_v10
  let main_c_3 : IVec S_ 1 := constantI S_ 1 1#1
  let main_v12 : IVec S_ 1 := (fun x v => Host.reduce IntOp.andi x v reducesTo_S262144x128_S_d0_1 h_S_) main_v11 main_c_3
  let main_v13 : IVec S_ 1 := andi main_v8 main_v12
  let main_v14 : FVec F S384 .f32 := Host.absf main_arg3
  let main_cst_4 : FVec F S_ .f32 := constant S_ .f32 0x7F800000#32
  let main_v15 : FVec F S384 .f32 := broadcastInDim S384 ![] bcast_S_S384 main_cst_4
  let main_v16 : IVec S384 1 := cmpf .olt main_v14 main_v15
  fn_part1 (F := F) main_arg4 main_arg5 main_arg6 main_arg7 main_arg8 main_arg9 main_arg10 main_v13 main_v16
-- ==== Kernel.lean ====
abbrev S262144x128 : Shape := ⟨2, ![262144, 128]⟩
abbrev S384 : Shape := ⟨1, ![384]⟩
abbrev S384x128 : Shape := ⟨2, ![384, 128]⟩
abbrev S128 : Shape := ⟨1, ![128]⟩
abbrev S128x128 : Shape := ⟨2, ![128, 128]⟩
abbrev S512x128 : Shape := ⟨2, ![512, 128]⟩
abbrev S512x384 : Shape := ⟨2, ![512, 384]⟩
abbrev S512x48x8 : Shape := ⟨3, ![512, 48, 8]⟩
abbrev S512x48 : Shape := ⟨2, ![512, 48]⟩
abbrev S512x48x1 : Shape := ⟨3, ![512, 48, 1]⟩
abbrev S1x384 : Shape := ⟨2, ![1, 384]⟩
abbrev S1x128 : Shape := ⟨2, ![1, 128]⟩
abbrev S512x16x8 : Shape := ⟨3, ![512, 16, 8]⟩
abbrev S512x16 : Shape := ⟨2, ![512, 16]⟩
abbrev S512x16x1 : Shape := ⟨3, ![512, 16, 1]⟩

abbrev nBuf : Space → Nat
  | .hbm => 12
  | .vmem => 16
  | .smem => 0
  | _ => 0

abbrev bufTy : (tb : Table) → Fin (tcTables nBuf tb) → BufTy
  | .hbm, ⟨0, _⟩ => ⟨S262144x128, .f32⟩
  | .hbm, ⟨1, _⟩ => ⟨S262144x128, .f32⟩
  | .hbm, ⟨2, _⟩ => ⟨S262144x128, .f32⟩
  | .hbm, ⟨3, _⟩ => ⟨S384, .f32⟩
  | .hbm, ⟨4, _⟩ => ⟨S384, .f32⟩
  | .hbm, ⟨5, _⟩ => ⟨S384x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S262144x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S384, .f32⟩
  | .local _ .vmem, ⟨7, _⟩ => ⟨S384, .f32⟩
  | .local _ .vmem, ⟨8, _⟩ => ⟨S384x128, .f32⟩
  | .local _ .vmem, ⟨9, _⟩ => ⟨S128, .f32⟩
  | .local _ .vmem, ⟨10, _⟩ => ⟨S128, .f32⟩
  | .local _ .vmem, ⟨11, _⟩ => ⟨S128, .f32⟩
  | .local _ .vmem, ⟨12, _⟩ => ⟨S128x128, .f32⟩
  | .local _ .vmem, ⟨13, _⟩ => ⟨S128, .f32⟩
  | .local _ .vmem, ⟨14, _⟩ => ⟨S512x128, .f32⟩
  | .local _ .vmem, ⟨15, _⟩ => ⟨S512x128, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  inb_S512x128_S512x128_0_0 : ∀ a, (![0, 0] : Fin 2 → Nat) a + S512x128.size a ≤ S512x128.size a
  h_S512x128 : 0 < S512x128.numel
  concatenates_S512x128_S512x128_S512x128_S512x384_d1 : Shape.Concatenates [S512x128, S512x128, S512x128] S512x384 1
  inb_S384_S384_0 : ∀ a, (![0] : Fin 1 → Nat) a + S384.size a ≤ S384.size a
  h_S384 : 0 < S384.numel
  shapeCasts_S512x384_S512x48x8 : S512x384.ShapeCasts S512x48x8
  reduces_S512x48x8_S512x48 : S512x48x8.Reduces [2] S512x48
  shapeCasts_S512x48_S512x48x1 : S512x48.ShapeCasts S512x48x1
  broadcasts_S512x48x1_S512x48x8 : S512x48x1.Broadcasts S512x48x8
  shapeCasts_S512x48x8_S512x384 : S512x48x8.ShapeCasts S512x384
  shapeCasts_S384_S1x384 : S384.ShapeCasts S1x384
  broadcasts_S1x384_S512x384 : S1x384.Broadcasts S512x384
  bitsLt_bf16_f32 : FTy.bits .bf16 < FTy.bits .f32
  inb_S384x128_S384x128_0_0 : ∀ a, (![0, 0] : Fin 2 → Nat) a + S384x128.size a ≤ S384x128.size a
  h_S384x128 : 0 < S384x128.numel
  inb_S128_S128_0 : ∀ a, (![0] : Fin 1 → Nat) a + S128.size a ≤ S128.size a
  h_S128 : 0 < S128.numel
  shapeCasts_S128_S1x128 : S128.ShapeCasts S1x128
  broadcasts_S1x128_S512x128 : S1x128.Broadcasts S512x128
  shapeCasts_S512x128_S512x16x8 : S512x128.ShapeCasts S512x16x8
  reduces_S512x16x8_S512x16 : S512x16x8.Reduces [2] S512x16
  shapeCasts_S512x16_S512x16x1 : S512x16.ShapeCasts S512x16x1
  broadcasts_S512x16x1_S512x16x8 : S512x16x1.Broadcasts S512x16x8
  shapeCasts_S512x16x8_S512x128 : S512x16x8.ShapeCasts S512x128
  inb_S128x128_S128x128_0_0 : ∀ a, (![0, 0] : Fin 2 → Nat) a + S128x128.size a ≤ S128x128.size a
  h_S128x128 : 0 < S128x128.numel
  dot_S512x384_S384x128_S512x128_1_0_0_1_n_n_wf : DotDims.WF S512x384 S384x128 S512x128 [1] [0] [0] [1] [] []
  dot_S512x128_S128x128_S512x128_1_0_0_1_n_n_wf : DotDims.WF S512x128 S128x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S262144x128.size a
  hwx0_0 : ∀ i : grid0.Coords, EltTy.bits .f32 = 32 ∨ (Rect.block (s := S262144x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S262144x128.size a
  hwx0_1 : ∀ i : grid0.Coords, EltTy.bits .f32 = 32 ∨ (Rect.block (s := S262144x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S262144x128.size a
  hwx0_2 : ∀ i : grid0.Coords, EltTy.bits .f32 = 32 ∨ (Rect.block (s := S262144x128) S512x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384.size a ≤ S384.size a
  hwx0_3 : ∀ i : grid0.Coords, EltTy.bits .f32 = 32 ∨ (Rect.block (s := S384) S384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S384.size a ≤ S384.size a
  hwx0_4 : ∀ i : grid0.Coords, EltTy.bits .f32 = 32 ∨ (Rect.block (s := S384) S384.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S384x128.size a ≤ S384x128.size a
  hwx0_5 : ∀ i : grid0.Coords, EltTy.bits .f32 = 32 ∨ (Rect.block (s := S384x128) S384x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x128.size a ≤ S262144x128.size a
  hwx0_11 : ∀ i : grid0.Coords, EltTy.bits .f32 = 32 ∨ (Rect.block (s := S262144x128) S512x128.size (cc0_transform_11 i) (hinb0_11 i)).WholeWords (EltTy.packing .f32)

variable [Facts₀]

def dot_S512x384_S384x128_S512x128_1_0_0_1_n_n : DotDims S512x384 S384x128 S512x128 where
  lhsContracting := [1]
  rhsContracting := [0]
  lhsNonContracting := [0]
  rhsNonContracting := [1]
  lhsBatch := []
  rhsBatch := []
  wf := dot_S512x384_S384x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S384x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v0) S512x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S262144x128 : Shape := ⟨2, ![262144, 128]⟩
abbrev S384 : Shape := ⟨1, ![384]⟩
abbrev S384x128 : Shape := ⟨2, ![384, 128]⟩
abbrev S128 : Shape := ⟨1, ![128]⟩
abbrev S128x128 : Shape := ⟨2, ![128, 128]⟩
abbrev S262144x384 : Shape := ⟨2, ![262144, 384]⟩
abbrev S262144x48x8 : Shape := ⟨3, ![262144, 48, 8]⟩
abbrev S_ : Shape := ⟨0, ![]⟩
abbrev S262144x48 : Shape := ⟨2, ![262144, 48]⟩
abbrev S262144x48x1 : Shape := ⟨3, ![262144, 48, 1]⟩
abbrev S1x384 : Shape := ⟨2, ![1, 384]⟩
abbrev S1x128 : Shape := ⟨2, ![1, 128]⟩
abbrev S262144x16x8 : Shape := ⟨3, ![262144, 16, 8]⟩
abbrev S262144x16 : Shape := ⟨2, ![262144, 16]⟩
abbrev S262144x16x1 : Shape := ⟨3, ![262144, 16, 1]⟩

abbrev nBuf : Space → Nat
  | .hbm => 89
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S262144x128, .f32⟩
  | .hbm, ⟨2, _⟩ => ⟨S262144x128, .f32⟩
  | .hbm, ⟨3, _⟩ => ⟨S384, .f32⟩
  | .hbm, ⟨4, _⟩ => ⟨S384, .f32⟩
  | .hbm, ⟨5, _⟩ => ⟨S384x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S262144x384, .f32⟩
  | .hbm, ⟨12, _⟩ => ⟨S262144x48x8, .f32⟩
  | .hbm, ⟨13, _⟩ => ⟨S_, .f32⟩
  | .hbm, ⟨14, _⟩ => ⟨S262144x48, .f32⟩
  | .hbm, ⟨15, _⟩ => ⟨S262144x48x1, .f32⟩
  | .hbm, ⟨16, _⟩ => ⟨S_, .f32⟩
  | .hbm, ⟨17, _⟩ => ⟨S262144x48x1, .f32⟩
  | .hbm, ⟨18, _⟩ => ⟨S262144x48x1, .f32⟩
  | .hbm, ⟨19, _⟩ => ⟨S262144x48x8, .f32⟩
  | .hbm, ⟨20, _⟩ => ⟨S262144x48x8, .f32⟩
  | .hbm, ⟨21, _⟩ => ⟨S262144x48x8, .f32⟩
  | .hbm, ⟨22, _⟩ => ⟨S_, .f32⟩
  | .hbm, ⟨23, _⟩ => ⟨S262144x48, .f32⟩
  | .hbm, ⟨24, _⟩ => ⟨S262144x48x1, .f32⟩
  | .hbm, ⟨25, _⟩ => ⟨S_, .f32⟩
  | .hbm, ⟨26, _⟩ => ⟨S262144x48x1, .f32⟩
  | .hbm, ⟨27, _⟩ => ⟨S262144x48x1, .f32⟩
  | .hbm, ⟨28, _⟩ => ⟨S262144x48x8, .f32⟩
  | .hbm, ⟨29, _⟩ => ⟨S262144x48x8, .f32⟩
  | .hbm, ⟨30, _⟩ => ⟨S_, .f32⟩
  | .hbm, ⟨31, _⟩ => ⟨S262144x48x1, .f32⟩
  | .hbm, ⟨32, _⟩ => ⟨S262144x48x1, .f32⟩
  | .hbm, ⟨33, _⟩ => ⟨S262144x48x1, .f32⟩
  | .hbm, ⟨34, _⟩ => ⟨S262144x48x8, .f32⟩
  | .hbm, ⟨35, _⟩ => ⟨S262144x48x8, .f32⟩
  | .hbm, ⟨36, _⟩ => ⟨S262144x384, .f32⟩
  | .hbm, ⟨37, _⟩ => ⟨S1x384, .f32⟩
  | .hbm, ⟨38, _⟩ => ⟨S262144x384, .f32⟩
  | .hbm, ⟨39, _⟩ => ⟨S262144x384, .f32⟩
  | .hbm, ⟨40, _⟩ => ⟨S1x384, .f32⟩
  | .hbm, ⟨41, _⟩ => ⟨S262144x384, .f32⟩
  | .hbm, ⟨42, _⟩ => ⟨S262144x384, .f32⟩
  | .hbm, ⟨43, _⟩ => ⟨S_, .f32⟩
  | .hbm, ⟨44, _⟩ => ⟨S262144x384, .f32⟩
  | .hbm, ⟨45, _⟩ => ⟨S262144x384, .f32⟩
  | .hbm, ⟨46, _⟩ => ⟨S262144x128, .f32⟩
  | .hbm, ⟨47, _⟩ => ⟨S1x128, .f32⟩
  | .hbm, ⟨48, _⟩ => ⟨S262144x128, .f32⟩
  | .hbm, ⟨49, _⟩ => ⟨S262144x128, .f32⟩
  | .hbm, ⟨50, _⟩ => ⟨S262144x16x8, .f32⟩
  | .hbm, ⟨51, _⟩ => ⟨S_, .f32⟩
  | .hbm, ⟨52, _⟩ => ⟨S262144x16, .f32⟩
  | .hbm, ⟨53, _⟩ => ⟨S262144x16x1, .f32⟩
  | .hbm, ⟨54, _⟩ => ⟨S_, .f32⟩
  | .hbm, ⟨55, _⟩ => ⟨S262144x16x1, .f32⟩
  | .hbm, ⟨56, _⟩ => ⟨S262144x16x1, .f32⟩
  | .hbm, ⟨57, _⟩ => ⟨S262144x16x8, .f32⟩
  | .hbm, ⟨58, _⟩ => ⟨S262144x16x8, .f32⟩
  | .hbm, ⟨59, _⟩ => ⟨S262144x16x8, .f32⟩
  | .hbm, ⟨60, _⟩ => ⟨S_, .f32⟩
  | .hbm, ⟨61, _⟩ => ⟨S262144x16, .f32⟩
  | .hbm, ⟨62, _⟩ => ⟨S262144x16x1, .f32⟩
  | .hbm, ⟨63, _⟩ => ⟨S_, .f32⟩
  | .hbm, ⟨64, _⟩ => ⟨S262144x16x1, .f32⟩
  | .hbm, ⟨65, _⟩ => ⟨S262144x16x1, .f32⟩
  | .hbm, ⟨66, _⟩ => ⟨S262144x16x8, .f32⟩
  | .hbm, ⟨67, _⟩ => ⟨S262144x16x8, .f32⟩
  | .hbm, ⟨68, _⟩ => ⟨S_, .f32⟩
  | .hbm, ⟨69, _⟩ => ⟨S262144x16x1, .f32⟩
  | .hbm, ⟨70, _⟩ => ⟨S262144x16x1, .f32⟩
  | .hbm, ⟨71, _⟩ => ⟨S262144x16x1, .f32⟩
  | .hbm, ⟨72, _⟩ => ⟨S262144x16x8, .f32⟩
  | .hbm, ⟨73, _⟩ => ⟨S262144x16x8, .f32⟩
  | .hbm, ⟨74, _⟩ => ⟨S262144x128, .f32⟩
  | .hbm, ⟨75, _⟩ => ⟨S1x128, .f32⟩
  | .hbm, ⟨76, _⟩ => ⟨S262144x128, .f32⟩
  | .hbm, ⟨77, _⟩ => ⟨S262144x128, .f32⟩
  | .hbm, ⟨78, _⟩ => ⟨S1x128, .f32⟩
  | .hbm, ⟨79, _⟩ => ⟨S262144x128, .f32⟩
  | .hbm, ⟨80, _⟩ => ⟨S262144x128, .f32⟩
  | .hbm, ⟨81, _⟩ => ⟨S_, .f32⟩
  | .hbm, ⟨82, _⟩ => ⟨S262144x128, .f32⟩
  | .hbm, ⟨83, _⟩ => ⟨S262144x128, .f32⟩
  | .hbm, ⟨84, _⟩ => ⟨S262144x128, .f32⟩
  | .hbm, ⟨85, _⟩ => ⟨S1x128, .f32⟩
  | .hbm, ⟨86, _⟩ => ⟨S262144x128, .f32⟩
  | .hbm, ⟨87, _⟩ => ⟨S262144x128, .f32⟩
  | .hbm, ⟨88, _⟩ => ⟨S262144x128, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_call0_cst : Ref sig .tc := ⟨.hbm, 43, rfl⟩
abbrev main_call0_v0 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_4 : Ref sig .tc := ⟨.hbm, 51, rfl⟩
abbrev main_v33 : Ref sig .tc := ⟨.hbm, 52, rfl⟩
abbrev main_v34 : Ref sig .tc := ⟨.hbm, 53, rfl⟩
abbrev main_cst_5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_6 : Ref sig .tc := ⟨.hbm, 60, rfl⟩
abbrev main_v40 : Ref sig .tc := ⟨.hbm, 61, rfl⟩
abbrev main_v41 : Ref sig .tc := ⟨.hbm, 62, rfl⟩
abbrev main_cst_7 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_8 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_call1_cst : Ref sig .tc := ⟨.hbm, 81, rfl⟩
abbrev main_call1_v0 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩

abbrev nD : Nat := 1
abbrev τ : Topo := Topo.v7x

variable {F : FTy → Type} [FloatOps F]

class Facts₀ : Prop where
  concatenates_S262144x128_S262144x128_S262144x128_S262144x384_d1 : Shape.Concatenates [S262144x128, S262144x128, S262144x128] S262144x384 1
  shapeCasts_S262144x384_S262144x48x8 : S262144x384.ShapeCasts S262144x48x8
  reducesTo_S262144x48x8_S262144x48_d2 : S262144x48x8.ReducesTo [2] S262144x48
  h_S_ : 0 < S_.numel
  bcast_S262144x48_S262144x48x1_0_1 : S262144x48.BroadcastsInDim S262144x48x1 (![0, 1] : Fin 2 → Fin S262144x48x1.rank)
  bcast_S_S262144x48x1 : S_.BroadcastsInDim S262144x48x1 (![] : Fin 0 → Fin S262144x48x1.rank)
  bcast_S262144x48x1_S262144x48x8_0_1_2 : S262144x48x1.BroadcastsInDim S262144x48x8 (![0, 1, 2] : Fin 3 → Fin S262144x48x8.rank)
  shapeCasts_S262144x48x8_S262144x384 : S262144x48x8.ShapeCasts S262144x384
  bcast_S384_S1x384_1 : S384.BroadcastsInDim S1x384 (![1] : Fin 1 → Fin S1x384.rank)
  bcast_S1x384_S262144x384_0_1 : S1x384.BroadcastsInDim S262144x384 (![0, 1] : Fin 2 → Fin S262144x384.rank)
  bcast_S_S262144x384 : S_.BroadcastsInDim S262144x384 (![] : Fin 0 → Fin S262144x384.rank)
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  shapeCasts_S262144x128_S262144x16x8 : S262144x128.ShapeCasts S262144x16x8
  reducesTo_S262144x16x8_S262144x16_d2 : S262144x16x8.ReducesTo [2] S262144x16
  bcast_S262144x16_S262144x16x1_0_1 : S262144x16.BroadcastsInDim S262144x16x1 (![0, 1] : Fin 2 → Fin S262144x16x1.rank)
  bcast_S_S262144x16x1 : S_.BroadcastsInDim S262144x16x1 (![] : Fin 0 → Fin S262144x16x1.rank)
  bcast_S262144x16x1_S262144x16x8_0_1_2 : S262144x16x1.BroadcastsInDim S262144x16x8 (![0, 1, 2] : Fin 3 → Fin S262144x16x8.rank)
  shapeCasts_S262144x16x8_S262144x128 : S262144x16x8.ShapeCasts S262144x128
  bcast_S_S262144x128 : S_.BroadcastsInDim S262144x128 (![] : Fin 0 → Fin S262144x128.rank)
  dot_S262144x384_S384x128_S262144x128_1_0_0_1_n_n_wf : DotDims.WF S262144x384 S384x128 S262144x128 [1] [0] [0] [1] [] []
  dot_S262144x128_S128x128_S262144x128_1_0_0_1_n_n_wf : DotDims.WF S262144x128 S128x128 S262144x128 [1] [0] [0] [1] [] []

variable [Facts₀]

def dot_S262144x384_S384x128_S262144x128_1_0_0_1_n_n : DotDims S262144x384 S384x128 S262144x128 where
  lhsContracting := [1]
  rhsContracting := [0]
  lhsNonContracting := [0]
  rhsNonContracting := [1]
  lhsBatch := []
  rhsBatch := []
  wf := dot_S262144x384_S384x128_S262144x128_1_0_0_1_n_n_wf
def dot_S262144x128_S128x128_S262144x128_1_0_0_1_n_n : DotDims S262144x128 S128x128 S262144x128 where
  lhsContracting := [1]
  rhsContracting := [0]
  lhsNonContracting := [0]
  rhsNonContracting := [1]
  lhsBatch := []
  rhsBatch := []
  wf := dot_S262144x128_S128x128_S262144x128_1_0_0_1_n_n_wf

class Facts : Prop extends Facts₀ where

variable [Facts]
-- ==== Proof.RowSpec.lean ====
/-
  One edge's row of the message-passing block, as a function on extended reals.

  Both programs send a row of 3·128 concatenated features through: a group norm over 48 groups of 8 channels, an
  affine map and a clamp at zero, a 384×128 linear layer with bias; then the same again over 16 groups of 8 with a
  128×128 linear layer; and add the edge row back. They differ in ONE place: where the deviation `d` from the group
  mean is scaled by the group's spread `v = var + ε`, one multiplies by the reciprocal square root, `d · v^(-1/2)`,
  the other divides by the square root, `d / √v`. On the extended reals those agree exactly when `0 < v` (at `v = ⊤`
  both are `0`; at `v ≤ 0` or `v = ⊥` they differ), and here `v` is a mean of squares — each `d · d ≥ 0`, also at
  the infinities — plus a positive `ε`, so `0 < v` whatever the inputs are. No finiteness is used.
-/
import Idealize.ShloMosaic.PureOps.Ideal
import Idealize.ShloMosaic.PureOps.Ideal.Laws

noncomputable section

namespace Cert.RowSpec

open Idealize.ShloMosaic
open scoped BigOperators

/-! ## The two constants -/

/-- The group size as both programs spell it: the pattern of `8.0`. -/
def eight : EReal := Ideal.ofBits .f32 0x41000000#32

/-- The spread's regulariser as both programs spell it: the float nearest `1e-5`. -/
def eps : EReal := Ideal.ofBits .f32 0x3727C5AC#32

theorem eight_eq : eight = ((8 : ℝ) : EReal) := by
  unfold eight
  simp [Ideal.ofBits, Ideal.ieee, -EReal.coe_mul]; norm_num

theorem eps_pos : ∃ r : ℝ, 0 < r ∧ eps = (r : EReal) := by
  unfold eps
  refine ⟨_, ?_, by simp [Ideal.ofBits, Ideal.ieee, -EReal.coe_mul]; rfl⟩
  norm_num

/-! ## Signs on the extended reals -/

/-- A square is nonnegative, at the infinities too (`⊥ · ⊥ = ⊤`). -/
theorem mul_self_nonneg (d : EReal) : 0 ≤ d * d := by
  induction d using EReal.rec with
  | bot => rw [EReal.bot_mul_bot]; exact le_top
  | coe r => rw [← EReal.coe_mul]; exact_mod_cast _root_.mul_self_nonneg r
  | top => rw [EReal.top_mul_top]; exact le_top

/-- Dividing a nonnegative extended real by the group size keeps it nonnegative. -/
theorem div_eight_nonneg {x : EReal} (hx : 0 ≤ x) : 0 ≤ Ideal.div x eight := by
  rw [eight_eq, Ideal.div_coe (by norm_num : (8 : ℝ) ≠ 0)]
  exact EReal.mul_nonneg hx (by exact_mod_cast (by norm_num : (0 : ℝ) ≤ 1 / 8))

/-- THE LAW: against a positive spread (a positive real, or `⊤`), multiplying by the reciprocal square root is
    dividing by the square root, for every extended real `d`. -/
theorem mul_rsqrt_eq_div_sqrt (d : EReal) {v : EReal} (hv : 0 < v) :
    d * Ideal.rsqrt v = Ideal.div d (Ideal.sqrt v) := by
  induction v using EReal.rec with
  | bot => exact absurd hv (not_lt_of_ge bot_le)
  | coe r =>
    have hr : 0 < r := by exact_mod_cast hv
    have hs : 0 < Real.sqrt r := Real.sqrt_pos.2 hr
    rw [Ideal.rsqrt_coe, Ideal.sqrt_coe, if_neg (not_lt.2 hr.le), if_neg hr.ne', if_neg (not_lt.2 hr.le),
      Ideal.div, if_neg (by exact_mod_cast hs.ne'), EReal.coe_inv]
  | top =>
    rw [Ideal.rsqrt_top, Ideal.sqrt_top, Ideal.div, if_neg EReal.top_ne_zero, EReal.inv_top]

/-! ## A group norm over groups of eight -/

section Group
variable {G : ℕ}

/-- The mean of group `g`: its eight entries' sum over the group size. -/
def gmean (x : Fin G → Fin 8 → EReal) (g : Fin G) : EReal := Ideal.div (∑ k : Fin 8, x g k) eight

/-- An entry's deviation from its group's mean. -/
def gdev (x : Fin G → Fin 8 → EReal) (g : Fin G) (k : Fin 8) : EReal := x g k - gmean x g

/-- The group's spread: the mean of the squared deviations, plus `ε`. -/
def gspread (x : Fin G → Fin 8 → EReal) (g : Fin G) : EReal :=
  Ideal.div (∑ k : Fin 8, gdev x g k * gdev x g k) eight + eps

/-- The spread is positive, whatever the entries are. -/
theorem gspread_pos (x : Fin G → Fin 8 → EReal) (g : Fin G) : 0 < gspread x g := by
  obtain ⟨r, hr, he⟩ := eps_pos
  unfold gspread
  have h0 : 0 ≤ Ideal.div (∑ k : Fin 8, gdev x g k * gdev x g k) eight :=
    div_eight_nonneg (Finset.sum_nonneg fun k _ => mul_self_nonneg _)
  rw [he]
  exact lt_of_lt_of_le (by exact_mod_cast hr : (0 : EReal) < (r : EReal)) (le_add_of_nonneg_left h0)

/-- Scaling a deviation by a spread, the kernel's way: times the reciprocal square root. -/
def byRsqrt (d v : EReal) : EReal := d * Ideal.rsqrt v

/-- Scaling a deviation by a spread, the reference's way: over the square root. -/
def bySqrt (d v : EReal) : EReal := Ideal.div d (Ideal.sqrt v)

/-- The normalised, scaled, shifted and clamped entry, with the scaling `nrm` left open. -/
def act (nrm : EReal → EReal → EReal) (x w b : Fin G → Fin 8 → EReal) (g : Fin G) (k : Fin 8) : EReal :=
  max (nrm (gdev x g k) (gspread x g) * w g k + b g k) 0

/-- The two scalings give one activation. -/
theorem act_bySqrt (x w b : Fin G → Fin 8 → EReal) : act bySqrt x w b = act byRsqrt x w b := by
  funext g k
  unfold act bySqrt byRsqrt
  rw [mul_rsqrt_eq_div_sqrt _ (gspread_pos x g)]

end Group

/-! ## Channels and groups -/

/-- Channel `8 g + k` of 384. -/
def ch384 (g : Fin 48) (k : Fin 8) : Fin 384 := ⟨g.val * 8 + k.val, by have := g.isLt; have := k.isLt; omega⟩
/-- Channel `8 g + k` of 128. -/
def ch128 (g : Fin 16) (k : Fin 8) : Fin 128 := ⟨g.val * 8 + k.val, by have := g.isLt; have := k.isLt; omega⟩
/-- The group of a channel of 384. -/
def grp384 (c : Fin 384) : Fin 48 := ⟨c.val / 8, by have := c.isLt; omega⟩
/-- The group of a channel of 128. -/
def grp128 (c : Fin 128) : Fin 16 := ⟨c.val / 8, by have := c.isLt; omega⟩
/-- A channel's place in its group. -/
def lane {n : ℕ} (c : Fin n) : Fin 8 := ⟨c.val % 8, Nat.mod_lt _ (by norm_num)⟩

/-! ## The row -/

/-- The three feature rows side by side. -/
def cat (s t e : Fin 128 → EReal) (c : Fin 384) : EReal :=
  if h : c.val < 128 then s ⟨c.val, h⟩
  else if h' : c.val < 256 then t ⟨c.val - 128, by omega⟩
  else e ⟨c.val - 256, by have := c.isLt; omega⟩

/-- The first layer's output row: group norm over 48 groups, clamp, the 384×128 layer, its bias. -/
def hidden (nrm : EReal → EReal → EReal) (s t e : Fin 128 → EReal) (w b : Fin 384 → EReal)
    (W : Fin 384 → Fin 128 → EReal) (β : Fin 128 → EReal) (j : Fin 128) : EReal :=
  (∑ c : Fin 384, act nrm (fun g k => cat s t e (ch384 g k)) (fun g k => w (ch384 g k)) (fun g k => b (ch384 g k))
      (grp384 c) (lane c) * W c j) + β j

/-- The second layer's output row from the first's, and the edge row added back. -/
def outRow (nrm : EReal → EReal → EReal) (h : Fin 128 → EReal) (w b : Fin 128 → EReal)
    (W : Fin 128 → Fin 128 → EReal) (β e : Fin 128 → EReal) (j : Fin 128) : EReal :=
  (∑ c : Fin 128, act nrm (fun g k => h (ch128 g k)) (fun g k => w (ch128 g k)) (fun g k => b (ch128 g k))
      (grp128 c) (lane c) * W c j) + β j + e j

/-- The whole row. -/
def edgeRow (nrm : EReal → EReal → EReal) (s t e : Fin 128 → EReal) (w1 b1 : Fin 384 → EReal)
    (W1 : Fin 384 → Fin 128 → EReal) (β1 : Fin 128 → EReal) (w2 b2 : Fin 128 → EReal)
    (W2 : Fin 128 → Fin 128 → EReal) (β2 : Fin 128 → EReal) : Fin 128 → EReal :=
  outRow nrm (hidden nrm s t e w1 b1 W1 β1) w2 b2 W2 β2 e

/-- The two scalings give one row. -/
theorem edgeRow_bySqrt (s t e : Fin 128 → EReal) (w1 b1 : Fin 384 → EReal)
    (W1 : Fin 384 → Fin 128 → EReal) (β1 : Fin 128 → EReal) (w2 b2 : Fin 128 → EReal)
    (W2 : Fin 128 → Fin 128 → EReal) (β2 : Fin 128 → EReal) :
    edgeRow bySqrt s t e w1 b1 W1 β1 w2 b2 W2 β2 = edgeRow byRsqrt s t e w1 b1 W1 β1 w2 b2 W2 β2 := by
  have h1 : hidden bySqrt s t e w1 b1 W1 β1 = hidden byRsqrt s t e w1 b1 W1 β1 := by
    funext j; unfold hidden; rw [act_bySqrt]
  unfold edgeRow outRow
  rw [h1]
  funext j
  rw [act_bySqrt]

end Cert.RowSpec

end
-- ==== Proof.EdgeArray.lean ====
/-
  The output array of the message-passing block: its row `r` is the row function of row `r` of the source, target and
  edge arrays and of the parameters (two group-norm scale/shift pairs, two weight matrices, two biases). Stated once,
  over the literal shapes, so that the kernel's run and the reference's run can be posted at the same term.
-/
import proofs.«174417_j15401752724192_1_alg».proof.Proof.RowSpec
import Idealize.ShloMosaic.Lib.ValueIdx

noncomputable section

namespace Cert.RowSpec

open Idealize.ShloMosaic Idealize.ShloMosaic.ValueIdx

/-- Entry `(r, j)` of the result is entry `j` of the edge row function of the arrays' rows `r`. -/
def edgeArray (nrm : EReal → EReal → EReal)
    (a0 a1 a2 : (⟨2, ![262144, 128]⟩ : Shape).Idx → EReal) (a3 a4 : (⟨1, ![384]⟩ : Shape).Idx → EReal)
    (a5 : (⟨2, ![384, 128]⟩ : Shape).Idx → EReal) (a6 a7 a8 : (⟨1, ![128]⟩ : Shape).Idx → EReal)
    (a9 : (⟨2, ![128, 128]⟩ : Shape).Idx → EReal) (a10 : (⟨1, ![128]⟩ : Shape).Idx → EReal) :
    (⟨2, ![262144, 128]⟩ : Shape).Idx → EReal :=
  fun i => edgeRow nrm (fun c => a0 (ix2 (show Fin 262144 from i 0) c)) (fun c => a1 (ix2 (show Fin 262144 from i 0) c))
    (fun c => a2 (ix2 (show Fin 262144 from i 0) c)) (fun c => a3 (ix1 c)) (fun c => a4 (ix1 c)) (fun c j => a5 (ix2 c j))
    (fun j => a6 (ix1 j)) (fun c => a7 (ix1 c)) (fun c => a8 (ix1 c)) (fun c j => a9 (ix2 c j)) (fun j => a10 (ix1 j))
    (show Fin 128 from i 1)

/-- At explicit coordinates. -/
theorem edgeArray_ix2 (nrm : EReal → EReal → EReal)
    (a0 a1 a2 : (⟨2, ![262144, 128]⟩ : Shape).Idx → EReal) (a3 a4 : (⟨1, ![384]⟩ : Shape).Idx → EReal)
    (a5 : (⟨2, ![384, 128]⟩ : Shape).Idx → EReal) (a6 a7 a8 : (⟨1, ![128]⟩ : Shape).Idx → EReal)
    (a9 : (⟨2, ![128, 128]⟩ : Shape).Idx → EReal) (a10 : (⟨1, ![128]⟩ : Shape).Idx → EReal) (r : Fin 262144) (j : Fin 128) :
    edgeArray nrm a0 a1 a2 a3 a4 a5 a6 a7 a8 a9 a10 (ix2 r j)
      = edgeRow nrm (fun c => a0 (ix2 r c)) (fun c => a1 (ix2 r c)) (fun c => a2 (ix2 r c)) (fun c => a3 (ix1 c))
          (fun c => a4 (ix1 c)) (fun c j => a5 (ix2 c j)) (fun j => a6 (ix1 j)) (fun c => a7 (ix1 c)) (fun c => a8 (ix1 c))
          (fun c j => a9 (ix2 c j)) (fun j => a10 (ix1 j)) j := rfl

/-- The two scalings give one array. -/
theorem edgeArray_bySqrt
    (a0 a1 a2 : (⟨2, ![262144, 128]⟩ : Shape).Idx → EReal) (a3 a4 : (⟨1, ![384]⟩ : Shape).Idx → EReal)
    (a5 : (⟨2, ![384, 128]⟩ : Shape).Idx → EReal) (a6 a7 a8 : (⟨1, ![128]⟩ : Shape).Idx → EReal)
    (a9 : (⟨2, ![128, 128]⟩ : Shape).Idx → EReal) (a10 : (⟨1, ![128]⟩ : Shape).Idx → EReal) :
    edgeArray bySqrt a0 a1 a2 a3 a4 a5 a6 a7 a8 a9 a10 = edgeArray byRsqrt a0 a1 a2 a3 a4 a5 a6 a7 a8 a9 a10 := by
  funext i
  unfold edgeArray
  rw [edgeRow_bySqrt]

end Cert.RowSpec

end
-- ==== Proof.KernelLayer1.lean ====
/-
  The kernel body's first payload, read at one index, is the first layer's row function.

  The payload is one pure term: the three 512 × 128 feature blocks set side by side into a 512 × 384 block; each row
  seen as 48 groups of 8 channels; per group the mean (lane sum over the group size), the deviations from it, the
  spread (mean squared deviation plus the regulariser) and the deviation times the spread's reciprocal square root;
  the rows flattened again, scaled and shifted channel by channel and clamped at zero; the 384 × 128 product into a
  zero accumulator; the bias row. On the extended reals every pointwise operation reads through at an index, and the
  narrowing before the product is the identity, so what is left to say is where each operation that moves entries
  reads from:
    * a shape cast keeps the row-major position: entry (p, g, k) of the grouped view is channel 8 g + k of row p, and
      back, channel c is entry (p, c / 8, c % 8);
    * the lane sum at (p, g) is the sum over k of the entries (p, g, k);
    * a broadcast along a unit axis reads the one entry there;
    * the concatenation at channel c reads the first block below 128, the second below 256, the third above;
    * the product at (p, j) is the sum over the one contraction coordinate c of left (p, c) times right (c, j).
  Each stretch of the payload is named below as a function of whole blocks, its entry at an index is computed over
  arbitrary blocks of those shapes, and the theorem chains the readings.
-/
import proofs.«174417_j15401752724192_1_alg».proof.Proof.Gen.KernelIdeal.Skeleton
import proofs.«174417_j15401752724192_1_alg».proof.Proof.RowSpec
import Idealize.ShloMosaic.Lib.ValueIdx
import Idealize.ShloMosaic.Lib.ValueLayout
import Idealize.ShloMosaic.Lib.Pipeline.Value
import Idealize.ShloMosaic.PureOps.Ideal.Laws

noncomputable section
open Idealize.ShloMosaic Idealize.ShloMosaic.ValueIdx
open scoped BigOperators

namespace Cert.KernelIdeal.Layers.First
open Cert.KernelIdeal Cert.KernelIdeal.Gen Cert.RowSpec

/-! ## Layout operations at explicit coordinates -/

section Layout
variable {α : Type}

/-- A row of 384 seen as 48 groups of 8: entry (p, g, k) is channel 8 g + k of row p. -/
theorem cast_row_groups (X : S512x384.Idx → α) (h : S512x384.ShapeCasts S512x48x8) (p : Fin 512) (g : Fin 48) (k : Fin 8) :
    shapeCast S512x48x8 X h (ix3 p g k) = X (ix2 p (ch384 g k)) :=
  shapeCast_apply X h _ _ (by
    rw [Shape.rowMajor_val_two, Shape.rowMajor_val_three]
    show p.val * 384 + (g.val * 8 + k.val) = (p.val * 48 + g.val) * 8 + k.val
    omega)

/-- Back: channel c of row p is entry (p, c / 8, c % 8) of the grouped view. -/
theorem cast_groups_row (Y : S512x48x8.Idx → α) (h : S512x48x8.ShapeCasts S512x384) (p : Fin 512) (c : Fin 384) :
    shapeCast S512x384 Y h (ix2 p c) = Y (ix3 p (grp384 c) (lane c)) :=
  shapeCast_apply Y h _ _ (by
    rw [Shape.rowMajor_val_two, Shape.rowMajor_val_three]
    show (p.val * 48 + c.val / 8) * 8 + c.val % 8 = p.val * 384 + c.val
    omega)

/-- A per-group value with a trailing unit axis added. -/
theorem cast_keepdim (m : S512x48.Idx → α) (h : S512x48.ShapeCasts S512x48x1) (p : Fin 512) (g : Fin 48) (u : Fin 1) :
    shapeCast S512x48x1 m h (ix3 p g u) = m (ix2 p g) :=
  shapeCast_apply m h _ _ (by
    have hu : u.val = 0 := by omega
    rw [Shape.rowMajor_val_two, Shape.rowMajor_val_three]
    show p.val * 48 + g.val = (p.val * 48 + g.val) * 1 + u.val
    omega)

/-- A per-group value spread over the group's eight lanes. -/
theorem bcast_lanes (m : S512x48x1.Idx → α) (h : S512x48x1.Broadcasts S512x48x8) (p : Fin 512) (g : Fin 48) (k : Fin 8) :
    broadcastTo S512x48x8 m h (ix3 p g k) = m (ix3 p g (0 : Fin 1)) :=
  broadcastTo_apply m h _ _ (fun a => by
    match a with
    | ⟨0, _⟩ => show p.val = if (512 : Nat) = 1 then 0 else p.val; rw [if_neg (by decide)]
    | ⟨1, _⟩ => show g.val = if (48 : Nat) = 1 then 0 else g.val; rw [if_neg (by decide)]
    | ⟨2, _⟩ => show 0 = if (1 : Nat) = 1 then 0 else k.val; rw [if_pos rfl])

end Layout

/-- The index over group (p, g) with lane k put on the reduced axis. -/
theorem lift_lane (h : S512x48x8.Reduces [2] S512x48) (p : Fin 512) (g : Fin 48) (k : Fin 8) :
    h.lift (ix2 p g) k = ix3 p g k := by
  funext c
  apply Fin.ext
  match c with
  | ⟨0, _⟩ => rfl
  | ⟨1, _⟩ => rfl
  | ⟨2, _⟩ => rfl

/-! ## The lane sum -/

/-- The sum over the eight lanes of group (p, g): the reduction over the last axis, its accumulator the zero pattern. -/
theorem lane_sum (src : FVec Ideal S512x48x8 .f32) (h : S512x48x8.Reduces [2] S512x48) (hφ : FKind.Formats .f32)
    (hacc : (0x00000000#32 : BitVec 32) = 0x00000000#32) (p : Fin 512) (g : Fin 48) :
    multiReduction (F := Ideal) .add [2] S512x48 src 0x00000000#32 h hφ hacc (ix2 p g) = ∑ k : Fin 8, src (ix3 p g k) :=
  (Ideal.multiReduction_add_single src 0x00000000#32 h hφ hacc (ix2 p g)).trans
    (Finset.sum_congr rfl fun k _ => congrArg src (lift_lane h p g k))

/-! ## The group norm of a grouped block, operation by operation -/

/-- The per-group mean of a grouped block, kept with a unit lane axis: lane sum, unit axis, division by the group size. -/
def meanOf (Y : FVec Ideal S512x48x8 .f32) : FVec Ideal S512x48x1 .f32 :=
  divf (shapeCast S512x48x1 (multiReduction .add [2] S512x48 Y 0x00000000#32 reduces_S512x48x8_S512x48 (.inl rfl) rfl)
      shapeCasts_S512x48_S512x48x1)
    (broadcast S512x48x1 (Scalar.ofBits .f32 0x41000000#32))

/-- The deviations from the group means. -/
def devOf (Y : FVec Ideal S512x48x8 .f32) : FVec Ideal S512x48x8 .f32 :=
  subf Y (broadcastTo S512x48x8 (meanOf Y) broadcasts_S512x48x1_S512x48x8)

/-- The per-group spread: mean squared deviation plus the regulariser. -/
def spreadOf (Y : FVec Ideal S512x48x8 .f32) : FVec Ideal S512x48x1 .f32 :=
  addf (meanOf (mulf (devOf Y) (devOf Y))) (broadcast S512x48x1 (Scalar.ofBits .f32 0x3727C5AC#32))

/-- The normalised grouped block: deviation times the reciprocal square root of the spread. -/
def normedG (Y : FVec Ideal S512x48x8 .f32) : FVec Ideal S512x48x8 .f32 :=
  mulf (devOf Y) (broadcastTo S512x48x8 (rsqrt (spreadOf Y)) broadcasts_S512x48x1_S512x48x8)

/-- The mean of group (p, g) is the sum of its eight entries over the group size. -/
theorem meanOf_apply (Y : FVec Ideal S512x48x8 .f32) (p : Fin 512) (g : Fin 48) (u : Fin 1) :
    meanOf Y (ix3 p g u) = gmean (fun g k => Y (ix3 p g k)) g := by
  show Ideal.div (shapeCast S512x48x1 _ shapeCasts_S512x48_S512x48x1 (ix3 p g u)) eight = _
  rw [cast_keepdim, lane_sum]
  rfl

/-- An entry of the deviation block is the entry's deviation from its group's mean. -/
theorem devOf_apply (Y : FVec Ideal S512x48x8 .f32) (p : Fin 512) (g : Fin 48) (k : Fin 8) :
    devOf Y (ix3 p g k) = gdev (fun g k => Y (ix3 p g k)) g k := by
  show Y (ix3 p g k) - broadcastTo S512x48x8 (meanOf Y) broadcasts_S512x48x1_S512x48x8 (ix3 p g k) = _
  rw [bcast_lanes, meanOf_apply]
  rfl

/-- The spread block at group (p, g) is the group's spread. -/
theorem spreadOf_apply (Y : FVec Ideal S512x48x8 .f32) (p : Fin 512) (g : Fin 48) (u : Fin 1) :
    spreadOf Y (ix3 p g u) = gspread (fun g k => Y (ix3 p g k)) g := by
  show meanOf (mulf (devOf Y) (devOf Y)) (ix3 p g u) + eps = _
  rw [meanOf_apply]
  show Ideal.div (∑ k : Fin 8, devOf Y (ix3 p g k) * devOf Y (ix3 p g k)) eight + eps = _
  simp only [devOf_apply]
  rfl

/-- An entry of the normalised block: the deviation scaled by the reciprocal square root of its group's spread. -/
theorem normedG_apply (Y : FVec Ideal S512x48x8 .f32) (p : Fin 512) (g : Fin 48) (k : Fin 8) :
    normedG Y (ix3 p g k)
      = byRsqrt (gdev (fun g k => Y (ix3 p g k)) g k) (gspread (fun g k => Y (ix3 p g k)) g) := by
  show devOf Y (ix3 p g k) * broadcastTo S512x48x8 (rsqrt (spreadOf Y)) broadcasts_S512x48x1_S512x48x8 (ix3 p g k) = _
  rw [bcast_lanes, devOf_apply]
  show _ * Ideal.rsqrt (spreadOf Y (ix3 p g (0 : Fin 1))) = _
  rw [spreadOf_apply]
  rfl

/-- The normalised 512 × 384 block: grouped, normalised, flattened again. -/
def normed (X : FVec Ideal S512x384 .f32) : FVec Ideal S512x384 .f32 :=
  shapeCast S512x384 (normedG (shapeCast S512x48x8 X shapeCasts_S512x384_S512x48x8)) shapeCasts_S512x48x8_S512x384

/-- Channel c of row p, normalised: group c / 8, lane c % 8 of the row seen as 48 groups of 8. -/
theorem normed_apply (X : FVec Ideal S512x384 .f32) (p : Fin 512) (c : Fin 384) :
    normed X (ix2 p c)
      = byRsqrt (gdev (fun g k => X (ix2 p (ch384 g k))) (grp384 c) (lane c))
          (gspread (fun g k => X (ix2 p (ch384 g k))) (grp384 c)) := by
  unfold normed
  rw [cast_groups_row, normedG_apply]
  simp only [cast_row_groups]

/-! ## Scale, shift and clamp -/

/-- The activation block: times the scale row, plus the shift row, clamped at zero, narrowed for the product. -/
def clamped (N : FVec Ideal S512x384 .f32) (w b : FVec Ideal S384 .f32) : FVec Ideal S512x384 .bf16 :=
  truncf .bf16
    (maximumf
      (addf (mulf N (broadcastTo S512x384 (shapeCast S1x384 w shapeCasts_S384_S1x384) broadcasts_S1x384_S512x384))
        (broadcastTo S512x384 (shapeCast S1x384 b shapeCasts_S384_S1x384) broadcasts_S1x384_S512x384))
      (broadcast S512x384 (Scalar.ofBits .f32 0x00000000#32)))
    bitsLt_bf16_f32

/-- At (p, c): the entry times the scale of channel c, plus its shift, clamped at zero; narrowing changes nothing. -/
theorem clamped_apply (N : FVec Ideal S512x384 .f32) (w b : FVec Ideal S384 .f32) (p : Fin 512) (c : Fin 384) :
    clamped N w b (ix2 p c) = max (N (ix2 p c) * w (ix1 c) + b (ix1 c)) 0 := by
  show max (N (ix2 p c) * broadcastTo S512x384 (shapeCast S1x384 w shapeCasts_S384_S1x384) broadcasts_S1x384_S512x384 (ix2 p c)
      + broadcastTo S512x384 (shapeCast S1x384 b shapeCasts_S384_S1x384) broadcasts_S1x384_S512x384 (ix2 p c))
    (Ideal.ofBits .f32 0x00000000#32) = _
  rw [broadcastTo_1b_ab_apply, broadcastTo_1b_ab_apply, shapeCast_a_1a_apply, shapeCast_a_1a_apply, Ideal.ofBits_zero_f32]

/-! ## The three rows side by side -/

/-- The concatenation along the channel axis, read at (p, c): the piece the channel falls in. -/
theorem concat_apply (v0 v1 v2 : FVec Ideal S512x128 .f32)
    (h : Shape.Concatenates (([⟨S512x128, v0⟩, ⟨S512x128, v1⟩, ⟨S512x128, v2⟩] : List ((s : Shape) × (s.Idx → Ideal .f32))).map (·.1)) S512x384 1)
    (p : Fin 512) (c : Fin 384) :
    concatenate S512x384 1 [⟨S512x128, v0⟩, ⟨S512x128, v1⟩, ⟨S512x128, v2⟩] h (ix2 p c)
      = cat (fun c => v0 (ix2 p c)) (fun c => v1 (ix2 p c)) (fun c => v2 (ix2 p c)) c := by
  unfold cat
  by_cases h1 : c.val < 128
  · rw [dif_pos h1]
    exact concatenate_apply_piece 1 _ h (ix2 p c) 0 (by show (0 : Nat) < 3; omega) S512x128 v0 rfl rfl 0 rfl (ix2 p ⟨c.val, h1⟩)
      (fun b hb => match b with
        | ⟨0, _⟩ => rfl
        | ⟨1, _⟩ => absurd rfl hb)
      (Nat.zero_add _)
  · rw [dif_neg h1]
    by_cases h2 : c.val < 256
    · rw [dif_pos h2]
      exact concatenate_apply_piece 1 _ h (ix2 p c) 1 (by show (1 : Nat) < 3; omega) S512x128 v1 rfl rfl 128 rfl (ix2 p ⟨c.val - 128, by omega⟩)
        (fun b hb => match b with
          | ⟨0, _⟩ => rfl
          | ⟨1, _⟩ => absurd rfl hb)
        (by show 128 + (c.val - 128) = c.val; omega)
    · rw [dif_neg h2]
      exact concatenate_apply_piece 1 _ h (ix2 p c) 2 (by show (2 : Nat) < 3; omega) S512x128 v2 rfl rfl 256 rfl
        (ix2 p ⟨c.val - 256, by have := c.isLt; omega⟩)
        (fun b hb => match b with
          | ⟨0, _⟩ => rfl
          | ⟨1, _⟩ => absurd rfl hb)
        (by show 256 + (c.val - 256) = c.val; omega)

/-! ## The 384 × 128 product -/

/-- Row axis of the left operand: the output's row. -/
theorem lhs_axis0 (i : S512x128.Idx) (q : dot_S512x384_S384x128_S512x128_1_0_0_1_n_n.contr.Idx) :
    (dot_S512x384_S384x128_S512x128_1_0_0_1_n_n.lhsIdx i q 0).val = (i 0).val := by
  unfold DotDims.lhsIdx
  rw [dif_neg (show ¬(0 : Fin S512x384.rank) ∈ dot_S512x384_S384x128_S512x128_1_0_0_1_n_n.lhsBatch by decide),
    dif_pos (show (0 : Fin S512x384.rank) ∈ dot_S512x384_S384x128_S512x128_1_0_0_1_n_n.lhsNonContracting by decide)]
  rfl
/-- Column axis of the left operand: the contraction position. -/
theorem lhs_axis1 (i : S512x128.Idx) (q : dot_S512x384_S384x128_S512x128_1_0_0_1_n_n.contr.Idx) :
    (dot_S512x384_S384x128_S512x128_1_0_0_1_n_n.lhsIdx i q 1).val = (q ⟨0, by decide⟩).val :=
  dot_S512x384_S384x128_S512x128_1_0_0_1_n_n.lhsIdx_val_of_single rfl i q
/-- Row axis of the right operand: the contraction position. -/
theorem rhs_axis0 (i : S512x128.Idx) (q : dot_S512x384_S384x128_S512x128_1_0_0_1_n_n.contr.Idx) :
    (dot_S512x384_S384x128_S512x128_1_0_0_1_n_n.rhsIdx i q 0).val = (q ⟨0, by decide⟩).val :=
  dot_S512x384_S384x128_S512x128_1_0_0_1_n_n.rhsIdx_val_of_single rfl i q
/-- Column axis of the right operand: the output's column. -/
theorem rhs_axis1 (i : S512x128.Idx) (q : dot_S512x384_S384x128_S512x128_1_0_0_1_n_n.contr.Idx) :
    (dot_S512x384_S384x128_S512x128_1_0_0_1_n_n.rhsIdx i q 1).val = (i 1).val := by
  unfold DotDims.rhsIdx
  rw [dif_neg (show ¬(1 : Fin S384x128.rank) ∈ dot_S512x384_S384x128_S512x128_1_0_0_1_n_n.rhsBatch by decide),
    dif_pos (show (1 : Fin S384x128.rank) ∈ dot_S512x384_S384x128_S512x128_1_0_0_1_n_n.rhsNonContracting by decide)]
  rfl

/-- The product into the zero accumulator at (p, j): the sum over the 384 channels of row p of the left operand times
    column j of the right. The contraction index is re-indexed by its one coordinate. -/
theorem product_apply (A : FVec Ideal S512x384 .bf16) (B : FVec Ideal S384x128 .bf16) (p : Fin 512) (j : Fin 128) :
    matmul dot_S512x384_S384x128_S512x128_1_0_0_1_n_n none A B (constant (F := Ideal) S512x128 .f32 0x00000000#32) (ix2 p j)
      = ∑ c : Fin 384, A (ix2 p c) * B (ix2 c j) := by
  simp only [matmul]
  rw [Ideal.matmul_constant_zero_apply,
    ← Equiv.sum_comp (contrEquiv1 dot_S512x384_S384x128_S512x128_1_0_0_1_n_n 384 rfl rfl).symm]
  refine Finset.sum_congr rfl fun k _ => ?_
  have hk := contrEquiv1_symm_val dot_S512x384_S384x128_S512x128_1_0_0_1_n_n 384 rfl rfl k
  have el : dot_S512x384_S384x128_S512x128_1_0_0_1_n_n.lhsIdx (ix2 p j)
      ((contrEquiv1 dot_S512x384_S384x128_S512x128_1_0_0_1_n_n 384 rfl rfl).symm k) = ix2 p k :=
    funext fun a => Fin.ext (by
      match a with
      | ⟨0, _⟩ => exact lhs_axis0 _ _
      | ⟨1, _⟩ => exact (lhs_axis1 _ _).trans hk)
  have er : dot_S512x384_S384x128_S512x128_1_0_0_1_n_n.rhsIdx (ix2 p j)
      ((contrEquiv1 dot_S512x384_S384x128_S512x128_1_0_0_1_n_n 384 rfl rfl).symm k) = ix2 k j :=
    funext fun a => Fin.ext (by
      match a with
      | ⟨0, _⟩ => exact (rhs_axis0 _ _).trans hk
      | ⟨1, _⟩ => exact rhs_axis1 _ _)
  rw [el, er]

/-- The layer's output block: the activations times the narrowed weights, plus the bias row. -/
def layerOut (A : FVec Ideal S512x384 .bf16) (W : FVec Ideal S384x128 .f32) (β : FVec Ideal S128 .f32) :
    FVec Ideal S512x128 .f32 :=
  addf
    (matmul dot_S512x384_S384x128_S512x128_1_0_0_1_n_n none A (truncf .bf16 W bitsLt_bf16_f32)
      (constant S512x128 .f32 0x00000000#32))
    (broadcastTo S512x128 (shapeCast S1x128 β shapeCasts_S128_S1x128) broadcasts_S1x128_S512x128)

/-- At (p, j): the sum over channels of activation times weight, plus the bias of column j. -/
theorem layerOut_apply (A : FVec Ideal S512x384 .bf16) (W : FVec Ideal S384x128 .f32) (β : FVec Ideal S128 .f32)
    (p : Fin 512) (j : Fin 128) :
    layerOut A W β (ix2 p j) = (∑ c : Fin 384, A (ix2 p c) * W (ix2 c j)) + β (ix1 j) := by
  show matmul dot_S512x384_S384x128_S512x128_1_0_0_1_n_n none A (truncf .bf16 W bitsLt_bf16_f32)
        (constant (F := Ideal) S512x128 .f32 0x00000000#32) (ix2 p j)
      + broadcastTo S512x128 (shapeCast S1x128 β shapeCasts_S128_S1x128) broadcasts_S1x128_S512x128 (ix2 p j) = _
  rw [product_apply, broadcastTo_1b_ab_apply, shapeCast_a_1a_apply]
  rfl

/-! ## Channels, groups and lanes -/

/-- A channel is lane c % 8 of group c / 8. -/
theorem ch384_grp_lane (c : Fin 384) : ch384 (grp384 c) (lane c) = c :=
  Fin.ext (by show c.val / 8 * 8 + c.val % 8 = c.val; omega)

end Cert.KernelIdeal.Layers.First

namespace Cert.KernelIdeal.Layers
open Cert.KernelIdeal Cert.KernelIdeal.Gen Cert.RowSpec Cert.KernelIdeal.Layers.First

/-- The first payload at (p, j) is the first layer's row function of row p of the three feature blocks, at column j.
    The payload is the composition of the stretches named above (by unfolding). Read at (p, j): the product and the
    bias give the sum over channels c of activation (p, c) times weight (c, j), plus bias j; the activation is the
    normalised entry times scale c plus shift c, clamped; the normalised entry is the deviation at group c / 8,
    lane c % 8 of the row's groups, scaled by that group's spread; and the row's channel 8 g + k is the concatenated
    row there. A channel being lane c % 8 of group c / 8 puts the scale and shift at channel c. -/
theorem first_layer (v0 v1 v2 : Vec Ideal S512x128 .f32) (v4 v5 : Vec Ideal S384 .f32) (v33 : Vec Ideal S384x128 .f32)
    (v36 : Vec Ideal S128 .f32) (p : Fin 512) (j : Fin 128) :
    k0_pay2 (F := Ideal) v0 v1 v2 v4 v5 v33 v36 (ix2 p j)
      = hidden byRsqrt (fun c => v0 (ix2 p c)) (fun c => v1 (ix2 p c)) (fun c => v2 (ix2 p c))
          (fun c => v4 (ix1 c)) (fun c => v5 (ix1 c)) (fun c j => v33 (ix2 c j)) (fun j => v36 (ix1 j)) j := by
  show layerOut
      (clamped
        (normed (concatenate S512x384 1 [⟨S512x128, v0⟩, ⟨S512x128, v1⟩, ⟨S512x128, v2⟩]
          concatenates_S512x128_S512x128_S512x128_S512x384_d1))
        v4 v5)
      v33 v36 (ix2 p j) = _
  rw [layerOut_apply]
  unfold Cert.RowSpec.hidden
  refine congrArg (· + v36 (ix1 j)) (Finset.sum_congr rfl fun c _ => ?_)
  rw [clamped_apply, normed_apply]
  simp only [concat_apply]
  unfold Cert.RowSpec.act
  simp only [ch384_grp_lane]

end Cert.KernelIdeal.Layers
end
-- ==== Proof.KernelLayer2.lean ====
/-
  The kernel body's second payload, read at one entry.

  The payload takes the first layer's output block (512 rows of 128), views each row as 16 groups of 8, subtracts each
  group's mean, multiplies by the reciprocal square root of the group's mean squared deviation plus a regulariser, views
  the rows as 128 again, scales and shifts by two row vectors, clamps at zero, multiplies by a 128×128 matrix into a zero
  accumulator, adds a bias row and adds the edge block. Every operation but five is entrywise. The five that move
  entries are read here at explicit coordinates: the two changes of view (a row-major place is kept: channel
  `c = 8 g + k`), the sum over the lane axis (a sum over `Fin 8`), the spreading of a per-group value over its lanes, the
  laying of a row vector over the rows, and the matrix product (a sum over the 128 channels). With those, the entry
  (p, j) of the payload is `RowSpec.outRow` of row p of the block, the vectors, the matrix, the bias and row p of the
  edge block, term for term; no arithmetic law of the extended reals is used.
-/
import proofs.«174417_j15401752724192_1_alg».proof.Proof.Gen.KernelIdeal.Skeleton
import proofs.«174417_j15401752724192_1_alg».proof.Proof.RowSpec
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx
open scoped BigOperators

namespace Cert.KernelIdeal.Layers

open Cert.KernelIdeal Cert.KernelIdeal.Gen Cert.RowSpec

namespace Second

/-! ## The operations that move entries, at coordinates -/

/-- Splitting a row of 128 into 16 groups of 8 keeps the row-major place: entry (p, g, k) is entry (p, 8 g + k). -/
theorem split_apply (X : FVec Ideal S512x128 .f32) (h : S512x128.ShapeCasts S512x16x8) (p : Fin 512) (g : Fin 16) (k : Fin 8) :
    shapeCast S512x16x8 X h (ix3 p g k) = X (ix2 p (ch128 g k)) :=
  shapeCast_apply X h _ _ (by
    rw [Shape.rowMajor_val_two, Shape.rowMajor_val_three]
    show p.val * 128 + (g.val * 8 + k.val) = (p.val * 16 + g.val) * 8 + k.val
    omega)

/-- Joining the groups back: entry (p, c) is entry (p, c / 8, c % 8). -/
theorem join_apply (Y : FVec Ideal S512x16x8 .f32) (h : S512x16x8.ShapeCasts S512x128) (p : Fin 512) (c : Fin 128) :
    shapeCast S512x128 Y h (ix2 p c) = Y (ix3 p (grp128 c) (lane c)) :=
  shapeCast_apply Y h _ _ (by
    rw [Shape.rowMajor_val_two, Shape.rowMajor_val_three]
    show (p.val * 16 + c.val / 8) * 8 + c.val % 8 = p.val * 128 + c.val
    omega)

/-- A trailing unit axis added to the group sums changes no entry. -/
theorem keep_apply (Z : FVec Ideal S512x16 .f32) (h : S512x16.ShapeCasts S512x16x1) (p : Fin 512) (g : Fin 16) (u : Fin 1) :
    shapeCast S512x16x1 Z h (ix3 p g u) = Z (ix2 p g) :=
  shapeCast_apply Z h _ _ (by
    have hu : u.val = 0 := by omega
    rw [Shape.rowMajor_val_two, Shape.rowMajor_val_three]
    show p.val * 16 + g.val = (p.val * 16 + g.val) * 1 + u.val
    omega)

/-- A per-group value spread over the group's eight lanes. -/
theorem spread_apply (W : FVec Ideal S512x16x1 .f32) (h : S512x16x1.Broadcasts S512x16x8) (p : Fin 512) (g : Fin 16) (k : Fin 8) :
    broadcastTo S512x16x8 W h (ix3 p g k) = W (ix3 p g (0 : Fin 1)) := by
  refine broadcastTo_apply W h (ix3 p g k) (ix3 p g (0 : Fin 1)) fun ax => ?_
  match ax with
  | ⟨0, _⟩ => rfl
  | ⟨1, _⟩ => rfl
  | ⟨2, _⟩ => rfl

/-- The source index over (p, g) with lane k put on the summed axis is (p, g, k). -/
theorem lift_ix (h : S512x16x8.Reduces [2] S512x16) (p : Fin 512) (g : Fin 16) (k : Fin 8) :
    h.lift (ix2 p g) k = ix3 p g k := by
  funext ax
  refine Fin.ext ?_
  match ax with
  | ⟨0, _⟩ => rfl
  | ⟨1, _⟩ => rfl
  | ⟨2, _⟩ => rfl

/-- A sum over the lane axis, read at group (p, g): the eight lanes' sum. -/
theorem groupSum_apply (Y : FVec Ideal S512x16x8 .f32) (h : S512x16x8.Reduces [2] S512x16) (hφ : FKind.Formats .f32)
    (hacc : (0x00000000#32 : BitVec 32) = FKind.add.neutral .f32 hφ) (p : Fin 512) (g : Fin 16) :
    multiReduction (F := Ideal) .add [2] S512x16 Y 0x00000000#32 h hφ hacc (ix2 p g) = ∑ k : Fin 8, Y (ix3 p g k) :=
  (Ideal.multiReduction_add_single Y 0x00000000#32 h hφ hacc (ix2 p g)).trans
    (Finset.sum_congr rfl fun k _ => congrArg Y (lift_ix h p g k))

/-- A row vector of 128 laid over the 512 rows. -/
theorem row_apply (v : Vec Ideal S128 .f32) (h1 : S128.ShapeCasts S1x128) (h2 : S1x128.Broadcasts S512x128) (p : Fin 512) (c : Fin 128) :
    broadcastTo S512x128 (shapeCast S1x128 v h1) h2 (ix2 p c) = v (ix1 c) := by
  rw [broadcastTo_1b_ab_apply, shapeCast_a_1a_apply]

/-! ## The 128×128 product read at an entry -/

/-- On the left operand's row axis the product's index is the output's row. -/
theorem lhs_layer2_0 (i : S512x128.Idx) (q : dot_S512x128_S128x128_S512x128_1_0_0_1_n_n.contr.Idx) :
    (dot_S512x128_S128x128_S512x128_1_0_0_1_n_n.lhsIdx i q 0).val = (i 0).val := by
  unfold DotDims.lhsIdx
  rw [dif_neg (show ¬(0 : Fin S512x128.rank) ∈ dot_S512x128_S128x128_S512x128_1_0_0_1_n_n.lhsBatch by decide), dif_pos (show (0 : Fin S512x128.rank) ∈ dot_S512x128_S128x128_S512x128_1_0_0_1_n_n.lhsNonContracting by decide)]
  rfl
/-- On the left operand's column axis it is the summed channel. -/
theorem lhs_layer2_1 (i : S512x128.Idx) (q : dot_S512x128_S128x128_S512x128_1_0_0_1_n_n.contr.Idx) :
    (dot_S512x128_S128x128_S512x128_1_0_0_1_n_n.lhsIdx i q 1).val = (q ⟨0, by decide⟩).val :=
  dot_S512x128_S128x128_S512x128_1_0_0_1_n_n.lhsIdx_val_of_single rfl i q
/-- On the right operand's row axis it is the summed channel. -/
theorem rhs_layer2_0 (i : S512x128.Idx) (q : dot_S512x128_S128x128_S512x128_1_0_0_1_n_n.contr.Idx) :
    (dot_S512x128_S128x128_S512x128_1_0_0_1_n_n.rhsIdx i q 0).val = (q ⟨0, by decide⟩).val :=
  dot_S512x128_S128x128_S512x128_1_0_0_1_n_n.rhsIdx_val_of_single rfl i q
/-- On the right operand's column axis it is the output's column. -/
theorem rhs_layer2_1 (i : S512x128.Idx) (q : dot_S512x128_S128x128_S512x128_1_0_0_1_n_n.contr.Idx) :
    (dot_S512x128_S128x128_S512x128_1_0_0_1_n_n.rhsIdx i q 1).val = (i 1).val := by
  unfold DotDims.rhsIdx
  rw [dif_neg (show ¬(1 : Fin S128x128.rank) ∈ dot_S512x128_S128x128_S512x128_1_0_0_1_n_n.rhsBatch by decide), dif_pos (show (1 : Fin S128x128.rank) ∈ dot_S512x128_S128x128_S512x128_1_0_0_1_n_n.rhsNonContracting by decide)]
  rfl

/-- The product into the zero accumulator, at entry (p, j): the sum over the 128 channels of row p of the left operand
    times column j of the right. -/
theorem product_apply {φ₁ φ₂ : FTy} (A : FVec Ideal S512x128 φ₁) (B : FVec Ideal S128x128 φ₂) (p : Fin 512) (j : Fin 128) :
    matmul dot_S512x128_S128x128_S512x128_1_0_0_1_n_n none A B (constant (F := Ideal) S512x128 .f32 0x00000000#32) (ix2 p j)
      = ∑ c : Fin 128, A (ix2 p c) * B (ix2 c j) := by
  simp only [matmul]
  rw [Ideal.matmul_constant_zero_apply, ← Equiv.sum_comp (contrEquiv1 dot_S512x128_S128x128_S512x128_1_0_0_1_n_n 128 rfl rfl).symm]
  refine Finset.sum_congr rfl fun c _ => ?_
  have hc := contrEquiv1_symm_val dot_S512x128_S128x128_S512x128_1_0_0_1_n_n 128 rfl rfl c
  have el : dot_S512x128_S128x128_S512x128_1_0_0_1_n_n.lhsIdx (ix2 p j) ((contrEquiv1 dot_S512x128_S128x128_S512x128_1_0_0_1_n_n 128 rfl rfl).symm c) = ix2 p c := funext fun a => Fin.ext (by
    match a with
    | ⟨0, _⟩ => exact lhs_layer2_0 _ _
    | ⟨1, _⟩ => exact (lhs_layer2_1 _ _).trans hc)
  have er : dot_S512x128_S128x128_S512x128_1_0_0_1_n_n.rhsIdx (ix2 p j) ((contrEquiv1 dot_S512x128_S128x128_S512x128_1_0_0_1_n_n 128 rfl rfl).symm c) = ix2 c j := funext fun a => Fin.ext (by
    match a with
    | ⟨0, _⟩ => exact (rhs_layer2_0 _ _).trans hc
    | ⟨1, _⟩ => exact rhs_layer2_1 _ _)
  rw [el, er]

/-! ## The payload's stretches, operation by operation -/

/-- The reciprocal square root of a block, entry by entry. -/
theorem rsqrt_apply {s : Shape} {φ : FTy} (x : FVec Ideal s φ) (i : s.Idx) : rsqrt x i = Ideal.rsqrt (x i) := rfl

/-- Per-group means of a block of 16 groups of 8 (kept as a unit lane axis): the lane sum over the group size. -/
def meanBlock (Y : FVec Ideal S512x16x8 .f32) : FVec Ideal S512x16x1 .f32 :=
  divf (shapeCast S512x16x1 (multiReduction .add [2] S512x16 Y 0x00000000#32 reduces_S512x16x8_S512x16 (.inl rfl) rfl) shapeCasts_S512x16_S512x16x1)
    (broadcast S512x16x1 (Scalar.ofBits .f32 0x41000000#32))

/-- Each entry's deviation from its group's mean. -/
def devBlock (Y : FVec Ideal S512x16x8 .f32) : FVec Ideal S512x16x8 .f32 :=
  subf Y (broadcastTo S512x16x8 (meanBlock Y) broadcasts_S512x16x1_S512x16x8)

/-- Per group, the reciprocal square root of the mean squared deviation plus the regulariser. -/
def scaleBlock (D : FVec Ideal S512x16x8 .f32) : FVec Ideal S512x16x1 .f32 :=
  rsqrt (addf (meanBlock (mulf D D)) (broadcast S512x16x1 (Scalar.ofBits .f32 0x3727C5AC#32)))

/-- The group-normalised block, back in rows of 128. -/
def normBlock (X : FVec Ideal S512x128 .f32) : FVec Ideal S512x128 .f32 :=
  shapeCast S512x128
    (mulf (devBlock (shapeCast S512x16x8 X shapeCasts_S512x128_S512x16x8))
      (broadcastTo S512x16x8 (scaleBlock (devBlock (shapeCast S512x16x8 X shapeCasts_S512x128_S512x16x8))) broadcasts_S512x16x1_S512x16x8))
    shapeCasts_S512x16x8_S512x128

/-- Scale and shift by two row vectors, then clamp at zero. -/
def actBlock (N : FVec Ideal S512x128 .f32) (w b : Vec Ideal S128 .f32) : FVec Ideal S512x128 .f32 :=
  maximumf
    (addf (mulf N (broadcastTo S512x128 (shapeCast S1x128 w shapeCasts_S128_S1x128) broadcasts_S1x128_S512x128))
      (broadcastTo S512x128 (shapeCast S1x128 b shapeCasts_S128_S1x128) broadcasts_S1x128_S512x128))
    (broadcast S512x128 (Scalar.ofBits .f32 0x00000000#32))

/-- The 128×128 layer on the clamped block, its bias row, and the edge block added back. -/
def outBlock (A : FVec Ideal S512x128 .f32) (W : Vec Ideal S128x128 .f32) (β : Vec Ideal S128 .f32) (E : Vec Ideal S512x128 .f32) :
    FVec Ideal S512x128 .f32 :=
  addf
    (addf
      (matmul dot_S512x128_S128x128_S512x128_1_0_0_1_n_n none (truncf .bf16 A bitsLt_bf16_f32) (truncf .bf16 W bitsLt_bf16_f32)
        (constant (F := Ideal) S512x128 .f32 0x00000000#32))
      (broadcastTo S512x128 (shapeCast S1x128 β shapeCasts_S128_S1x128) broadcasts_S1x128_S512x128))
    E

/-- The payload is these stretches composed: its bindings substitute to exactly this term. -/
theorem pay_eq_blocks (v2 : Vec Ideal S512x128 .f32) (v39 : FVec Ideal S512x128 .f32) (v40 v41 : Vec Ideal S128 .f32)
    (v69 : Vec Ideal S128x128 .f32) (v72 : Vec Ideal S128 .f32) :
    k0_pay1 (F := Ideal) v2 v39 v40 v41 v69 v72 = outBlock (actBlock (normBlock v39) v40 v41) v69 v72 v2 := rfl

/-! ## Each stretch read at an entry -/

/-- A group's mean: its eight entries' sum over the group size (the entries named by `y`). -/
theorem meanBlock_apply (Y : FVec Ideal S512x16x8 .f32) (y : Fin 8 → EReal) (p : Fin 512) (g : Fin 16) (u : Fin 1)
    (hy : ∀ k, Y (ix3 p g k) = y k) : meanBlock Y (ix3 p g u) = Ideal.div (∑ k : Fin 8, y k) eight := by
  unfold meanBlock
  rw [divf_apply, keep_apply, broadcast_apply]
  exact congrArg₂ Ideal.div ((groupSum_apply Y _ _ _ p g).trans (Finset.sum_congr rfl fun k _ => hy k)) rfl

/-- An entry's deviation from its group's mean is the row's `gdev` (the row's entries named by `x`). -/
theorem devBlock_apply (Y : FVec Ideal S512x16x8 .f32) (x : Fin 16 → Fin 8 → EReal) (p : Fin 512)
    (hY : ∀ g k, Y (ix3 p g k) = x g k) (g : Fin 16) (k : Fin 8) : devBlock Y (ix3 p g k) = gdev x g k := by
  unfold devBlock
  rw [subf_apply, spread_apply, meanBlock_apply Y (x g) p g 0 (hY g), hY]
  rfl

/-- A group's scale: the reciprocal square root of the mean of the squares of its entries (named by `d`) plus `eps`. -/
theorem scaleBlock_apply (D : FVec Ideal S512x16x8 .f32) (d : Fin 8 → EReal) (p : Fin 512) (g : Fin 16) (u : Fin 1)
    (hD : ∀ k, D (ix3 p g k) = d k) :
    scaleBlock D (ix3 p g u) = Ideal.rsqrt (Ideal.div (∑ k : Fin 8, d k * d k) eight + eps) := by
  unfold scaleBlock
  rw [rsqrt_apply, addf_apply, meanBlock_apply (mulf D D) (fun k => d k * d k) p g u (fun k => by rw [mulf_apply, hD]),
    broadcast_apply]
  rfl

/-- The normalised block at (p, c): the deviation of channel c within its group, times the reciprocal square root of the
    group's spread — the group norm of row p of the block, read at group c / 8 and lane c % 8. -/
theorem normBlock_apply (X : FVec Ideal S512x128 .f32) (p : Fin 512) (c : Fin 128) :
    normBlock X (ix2 p c)
      = byRsqrt (gdev (fun g k => X (ix2 p (ch128 g k))) (grp128 c) (lane c)) (gspread (fun g k => X (ix2 p (ch128 g k))) (grp128 c)) := by
  have hY : ∀ g k, shapeCast S512x16x8 X shapeCasts_S512x128_S512x16x8 (ix3 p g k) = (fun g k => X (ix2 p (ch128 g k))) g k :=
    fun g k => split_apply X _ p g k
  unfold normBlock
  rw [join_apply, mulf_apply, spread_apply, devBlock_apply _ _ p hY,
    scaleBlock_apply _ (gdev (fun g k => X (ix2 p (ch128 g k))) (grp128 c)) p (grp128 c) 0 (fun k => devBlock_apply _ _ p hY _ k)]
  rfl

/-- The clamped block at (p, c). -/
theorem actBlock_apply (N : FVec Ideal S512x128 .f32) (w b : Vec Ideal S128 .f32) (p : Fin 512) (c : Fin 128) :
    actBlock N w b (ix2 p c) = max (N (ix2 p c) * w (ix1 c) + b (ix1 c)) 0 := by
  unfold actBlock
  rw [maximumf_apply, addf_apply, mulf_apply, row_apply, row_apply, broadcast_apply]
  exact congrArg (max _) Ideal.ofBits_zero_f32

/-- The output block at (p, j): row p of the clamped block against column j of the weights, the bias and the edge entry. -/
theorem outBlock_apply (A : FVec Ideal S512x128 .f32) (W : Vec Ideal S128x128 .f32) (β : Vec Ideal S128 .f32) (E : Vec Ideal S512x128 .f32)
    (p : Fin 512) (j : Fin 128) :
    outBlock A W β E (ix2 p j) = (∑ c : Fin 128, A (ix2 p c) * W (ix2 c j)) + β (ix1 j) + E (ix2 p j) := by
  unfold outBlock
  rw [addf_apply, addf_apply, product_apply, row_apply]
  rfl

/-- A channel is the lane of its group. -/
theorem ch128_grp_lane (c : Fin 128) : ch128 (grp128 c) (lane c) = c :=
  Fin.ext (by show c.val / 8 * 8 + c.val % 8 = c.val; omega)

end Second

open Second

/-- The second payload at (p, j) is the second layer's row function of the operands' rows. -/
theorem second_layer (v2 : Vec Ideal S512x128 .f32) (v39 : FVec Ideal S512x128 .f32) (v40 v41 : Vec Ideal S128 .f32)
    (v69 : Vec Ideal S128x128 .f32) (v72 : Vec Ideal S128 .f32) (p : Fin 512) (j : Fin 128) :
    k0_pay1 (F := Ideal) v2 v39 v40 v41 v69 v72 (ix2 p j)
      = outRow byRsqrt (fun c => v39 (ix2 p c)) (fun c => v40 (ix1 c)) (fun c => v41 (ix1 c))
          (fun c j => v69 (ix2 c j)) (fun j => v72 (ix1 j)) (fun c => v2 (ix2 p c)) j := by
  rw [pay_eq_blocks, outBlock_apply]
  unfold outRow
  refine congrArg (· + v2 (ix2 p j)) (congrArg (· + v72 (ix1 j)) (Finset.sum_congr rfl fun c _ => ?_))
  rw [actBlock_apply, normBlock_apply]
  unfold act
  beta_reduce
  rw [ch128_grp_lane]

end Cert.KernelIdeal.Layers

end
-- ==== Proof.KernelArray.lean ====
/-
  What the kernel leaves in the result array, over its whole grid.

  The grid has 512 points; point `t` stages rows `512 t … 512 t + 511` of the source, target and edge arrays and the
  whole of each parameter, runs the body on them, and writes the body's block back to the same rows of the result. The
  body's two payloads are the two layers of the row function (KernelLayer1, KernelLayer2), so point `t` writes block
  `t` of the array whose row `r` is the row function of the arrays' rows `r`; the 512 blocks tile the 262144 rows; so
  that array is what the run leaves.
-/
import proofs.«174417_j15401752724192_1_alg».proof.Proof.Gen.KernelIdeal.Value
import proofs.«174417_j15401752724192_1_alg».proof.Proof.EdgeArray
import proofs.«174417_j15401752724192_1_alg».proof.Proof.KernelLayer1
import proofs.«174417_j15401752724192_1_alg».proof.Proof.KernelLayer2
import Idealize.ShloMosaic.Lib.ValueIdx
import Idealize.ShloMosaic.Lib.Pipeline.Value

noncomputable section

namespace Cert.KernelIdeal.Whole

open Cert.KernelIdeal Cert.KernelIdeal.Gen Cert.KernelIdeal.Layers Idealize.ShloMosaic Idealize.ShloMosaic.TcCoe Idealize.SL.Sem
open Idealize.ShloMosaic.ValueIdx Cert.RowSpec
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero1 : (![0] : Fin 1 → Nat) = fun _ => 0 := funext fun a => by fin_cases a; rfl

/-- Where each window sits at grid point `t`, decided over the 512 points: the three feature arrays and the result at
    row block `t`, every parameter at its one block. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 1) = 0 ∧ win0_4.index t (0 : Fin 1) = 0
    ∧ win0_5.index t (0 : Fin 2) = 0 ∧ win0_5.index t (1 : Fin 2) = 0
    ∧ win0_6.index t (0 : Fin 1) = 0 ∧ win0_7.index t (0 : Fin 1) = 0 ∧ win0_8.index t (0 : Fin 1) = 0
    ∧ win0_9.index t (0 : Fin 2) = 0 ∧ win0_9.index t (1 : Fin 2) = 0
    ∧ win0_10.index t (0 : Fin 1) = 0
    ∧ win0_11.index t (0 : Fin 2) = t.val ∧ win0_11.index t (1 : Fin 2) = 0 :=
  (by decide +kernel : ∀ t : Fin grid0.N, _)

/-- Row `p` of block `t` is row `512 t + p` of the array. -/
def rowOf (t : Fin cfg0.N) (p : Fin 512) : Fin 262144 :=
  ⟨t.val * 512 + p.val, by have ht : t.val < 512 := lt_of_lt_of_eq t.isLt N_0; have := p.isLt; omega⟩

/-! ## The blocks the body loads, read off the arrays -/

/-- The source block at `(p, q)` is the array at row `512 t + p`, column `q`. -/
theorem read_src (c : Dev nD) (t : Fin cfg0.N) (p : Fin 512) (q : Fin 128) :
    iblk m c 0 t (ix2 p q) = V m c main_arg0 (ix2 (rowOf t p) q) := by
  obtain ⟨e0, e1, -⟩ := block_index t
  have h : ((cfg0.win 0).blk t).view.emb (ix2 p q) = ix2 (rowOf t p) q := by
    funext a; apply Fin.ext
    match a with
    | ⟨0, _⟩ => show win0_0.index t (0 : Fin 2) * 512 + 1 * p.val = t.val * 512 + p.val; omega
    | ⟨1, _⟩ => show win0_0.index t (1 : Fin 2) * 128 + 1 * q.val = q.val; omega
  show V m c main_arg0 (((cfg0.win 0).blk t).view.emb (ix2 p q)) = _
  rw [h]

/-- The target block, likewise. -/
theorem read_tgt (c : Dev nD) (t : Fin cfg0.N) (p : Fin 512) (q : Fin 128) :
    iblk m c 1 t (ix2 p q) = V m c main_arg1 (ix2 (rowOf t p) q) := by
  obtain ⟨-, -, e0, e1, -⟩ := block_index t
  have h : ((cfg0.win 1).blk t).view.emb (ix2 p q) = ix2 (rowOf t p) q := by
    funext a; apply Fin.ext
    match a with
    | ⟨0, _⟩ => show win0_1.index t (0 : Fin 2) * 512 + 1 * p.val = t.val * 512 + p.val; omega
    | ⟨1, _⟩ => show win0_1.index t (1 : Fin 2) * 128 + 1 * q.val = q.val; omega
  show V m c main_arg1 (((cfg0.win 1).blk t).view.emb (ix2 p q)) = _
  rw [h]

/-- The edge block, likewise. -/
theorem read_edge (c : Dev nD) (t : Fin cfg0.N) (p : Fin 512) (q : Fin 128) :
    iblk m c 2 t (ix2 p q) = V m c main_arg2 (ix2 (rowOf t p) q) := by
  obtain ⟨-, -, -, -, e0, e1, -⟩ := block_index t
  have h : ((cfg0.win 2).blk t).view.emb (ix2 p q) = ix2 (rowOf t p) q := by
    funext a; apply Fin.ext
    match a with
    | ⟨0, _⟩ => show win0_2.index t (0 : Fin 2) * 512 + 1 * p.val = t.val * 512 + p.val; omega
    | ⟨1, _⟩ => show win0_2.index t (1 : Fin 2) * 128 + 1 * q.val = q.val; omega
  show V m c main_arg2 (((cfg0.win 2).blk t).view.emb (ix2 p q)) = _
  rw [h]

/-- Each parameter's one block is the whole parameter. -/
theorem read_w1 (c : Dev nD) (t : Fin cfg0.N) (k : Fin 384) : iblk m c 3 t (ix1 k) = V m c main_arg3 (ix1 k) := by
  obtain ⟨-, -, -, -, -, -, e, -⟩ := block_index t
  have h : ((cfg0.win 3).blk t).view.emb (ix1 k) = ix1 k := by
    funext a; apply Fin.ext
    match a with
    | ⟨0, _⟩ => show win0_3.index t (0 : Fin 1) * 384 + 1 * k.val = k.val; omega
  show V m c main_arg3 (((cfg0.win 3).blk t).view.emb (ix1 k)) = _
  rw [h]

theorem read_b1 (c : Dev nD) (t : Fin cfg0.N) (k : Fin 384) : iblk m c 4 t (ix1 k) = V m c main_arg4 (ix1 k) := by
  obtain ⟨-, -, -, -, -, -, -, e, -⟩ := block_index t
  have h : ((cfg0.win 4).blk t).view.emb (ix1 k) = ix1 k := by
    funext a; apply Fin.ext
    match a with
    | ⟨0, _⟩ => show win0_4.index t (0 : Fin 1) * 384 + 1 * k.val = k.val; omega
  show V m c main_arg4 (((cfg0.win 4).blk t).view.emb (ix1 k)) = _
  rw [h]

theorem read_W1 (c : Dev nD) (t : Fin cfg0.N) (k : Fin 384) (q : Fin 128) :
    iblk m c 5 t (ix2 k q) = V m c main_arg5 (ix2 k q) := by
  obtain ⟨-, -, -, -, -, -, -, -, e0, e1, -⟩ := block_index t
  have h : ((cfg0.win 5).blk t).view.emb (ix2 k q) = ix2 k q := by
    funext a; apply Fin.ext
    match a with
    | ⟨0, _⟩ => show win0_5.index t (0 : Fin 2) * 384 + 1 * k.val = k.val; omega
    | ⟨1, _⟩ => show win0_5.index t (1 : Fin 2) * 128 + 1 * q.val = q.val; omega
  show V m c main_arg5 (((cfg0.win 5).blk t).view.emb (ix2 k q)) = _
  rw [h]

theorem read_β1 (c : Dev nD) (t : Fin cfg0.N) (k : Fin 128) : iblk m c 6 t (ix1 k) = V m c main_arg6 (ix1 k) := by
  obtain ⟨-, -, -, -, -, -, -, -, -, -, e, -⟩ := block_index t
  have h : ((cfg0.win 6).blk t).view.emb (ix1 k) = ix1 k := by
    funext a; apply Fin.ext
    match a with
    | ⟨0, _⟩ => show win0_6.index t (0 : Fin 1) * 128 + 1 * k.val = k.val; omega
  show V m c main_arg6 (((cfg0.win 6).blk t).view.emb (ix1 k)) = _
  rw [h]

theorem read_w2 (c : Dev nD) (t : Fin cfg0.N) (k : Fin 128) : iblk m c 7 t (ix1 k) = V m c main_arg7 (ix1 k) := by
  obtain ⟨-, -, -, -, -, -, -, -, -, -, -, e, -⟩ := block_index t
  have h : ((cfg0.win 7).blk t).view.emb (ix1 k) = ix1 k := by
    funext a; apply Fin.ext
    match a with
    | ⟨0, _⟩ => show win0_7.index t (0 : Fin 1) * 128 + 1 * k.val = k.val; omega
  show V m c main_arg7 (((cfg0.win 7).blk t).view.emb (ix1 k)) = _
  rw [h]

theorem read_b2 (c : Dev nD) (t : Fin cfg0.N) (k : Fin 128) : iblk m c 8 t (ix1 k) = V m c main_arg8 (ix1 k) := by
  obtain ⟨-, -, -, -, -, -, -, -, -, -, -, -, e, -⟩ := block_index t
  have h : ((cfg0.win 8).blk t).view.emb (ix1 k) = ix1 k := by
    funext a; apply Fin.ext
    match a with
    | ⟨0, _⟩ => show win0_8.index t (0 : Fin 1) * 128 + 1 * k.val = k.val; omega
  show V m c main_arg8 (((cfg0.win 8).blk t).view.emb (ix1 k)) = _
  rw [h]

theorem read_W2 (c : Dev nD) (t : Fin cfg0.N) (k : Fin 128) (q : Fin 128) :
    iblk m c 9 t (ix2 k q) = V m c main_arg9 (ix2 k q) := by
  obtain ⟨-, -, -, -, -, -, -, -, -, -, -, -, -, e0, e1, -⟩ := block_index t
  have h : ((cfg0.win 9).blk t).view.emb (ix2 k q) = ix2 k q := by
    funext a; apply Fin.ext
    match a with
    | ⟨0, _⟩ => show win0_9.index t (0 : Fin 2) * 128 + 1 * k.val = k.val; omega
    | ⟨1, _⟩ => show win0_9.index t (1 : Fin 2) * 128 + 1 * q.val = q.val; omega
  show V m c main_arg9 (((cfg0.win 9).blk t).view.emb (ix2 k q)) = _
  rw [h]

theorem read_β2 (c : Dev nD) (t : Fin cfg0.N) (k : Fin 128) : iblk m c 10 t (ix1 k) = V m c main_arg10 (ix1 k) := by
  obtain ⟨-, -, -, -, -, -, -, -, -, -, -, -, -, -, -, e, -⟩ := block_index t
  have h : ((cfg0.win 10).blk t).view.emb (ix1 k) = ix1 k := by
    funext a; apply Fin.ext
    match a with
    | ⟨0, _⟩ => show win0_10.index t (0 : Fin 1) * 128 + 1 * k.val = k.val; omega
  show V m c main_arg10 (((cfg0.win 10).blk t).view.emb (ix1 k)) = _
  rw [h]

/-- Entry `(p, q)` of the result's block `t` is entry `(512 t + p, q)` of the result array. -/
theorem emb_out (t : Fin cfg0.N) (p : Fin 512) (q : Fin 128) :
    ((cfg0.win 11).blk t).view.emb (ix2 p q) = ix2 (rowOf t p) q := by
  obtain ⟨-, -, -, -, -, -, -, -, -, -, -, -, -, -, -, -, e0, e1⟩ := block_index t
  funext a; apply Fin.ext
  match a with
  | ⟨0, _⟩ => show win0_11.index t (0 : Fin 2) * 512 + 1 * p.val = t.val * 512 + p.val; omega
  | ⟨1, _⟩ => show win0_11.index t (1 : Fin 2) * 128 + 1 * q.val = q.val; omega

/-! ## What a grid point writes back -/

/-- The array the kernel leaves, as a function of the arrays the region finds. -/
abbrev result (c : Dev nD) : S262144x128.Idx → EReal :=
  edgeArray byRsqrt (V m c main_arg0) (V m c main_arg1) (V m c main_arg2) (V m c main_arg3) (V m c main_arg4)
    (V m c main_arg5) (V m c main_arg6) (V m c main_arg7) (V m c main_arg8) (V m c main_arg9) (V m c main_arg10)

/-- Grid point `t` writes back block `t` of that array: the body's two payloads are the two layers of the row
    function on the loaded blocks' rows, and the loaded blocks are the arrays' rows `512 t + p`. -/
theorem flushed_eq (c : Dev nD) (t : Fin cfg0.N) :
    (dats m 0 c).flushed 11 t = ((cfg0.win 11).blk t).view.read (Elt Ideal) (result m c) := by
  show (cfg0.win 11).cut (grid0.coords t) ((dats m 0 c).after 11 t) = _
  rw [after0_11]
  unfold out0_11
  rw [View.canon_unit_zero zero2]
  simp only [View.ld_unit_zero (S := S512x128) zero2, View.ld_unit_zero (S := S384) zero1,
    View.ld_unit_zero (S := S384x128) zero2, View.ld_unit_zero (S := S128) zero1, View.ld_unit_zero (S := S128x128) zero2]
  funext j
  obtain ⟨p, q, rfl⟩ : ∃ (p : Fin 512) (q : Fin 128), j = ix2 p q := ⟨j 0, j 1, eq_ix2 j⟩
  show k0_pay1 (F := Ideal) (iblk m c 2 t) (k0_pay2 (F := Ideal) (iblk m c 0 t) (iblk m c 1 t) (iblk m c 2 t) (iblk m c 3 t)
      (iblk m c 4 t) (iblk m c 5 t) (iblk m c 6 t)) (iblk m c 7 t) (iblk m c 8 t) (iblk m c 9 t) (iblk m c 10 t) (ix2 p q)
    = result m c (((cfg0.win 11).blk t).view.emb (ix2 p q))
  rw [emb_out t p q]
  refine (second_layer (iblk m c 2 t) (k0_pay2 (F := Ideal) (iblk m c 0 t) (iblk m c 1 t) (iblk m c 2 t) (iblk m c 3 t)
      (iblk m c 4 t) (iblk m c 5 t) (iblk m c 6 t)) (iblk m c 7 t) (iblk m c 8 t) (iblk m c 9 t) (iblk m c 10 t) p q).trans ?_
  have h1 : (fun k : Fin 128 => k0_pay2 (F := Ideal) (iblk m c 0 t) (iblk m c 1 t) (iblk m c 2 t) (iblk m c 3 t)
        (iblk m c 4 t) (iblk m c 5 t) (iblk m c 6 t) (ix2 p k))
      = hidden byRsqrt (fun k => iblk m c 0 t (ix2 p k)) (fun k => iblk m c 1 t (ix2 p k)) (fun k => iblk m c 2 t (ix2 p k))
          (fun k => iblk m c 3 t (ix1 k)) (fun k => iblk m c 4 t (ix1 k)) (fun k j => iblk m c 5 t (ix2 k j))
          (fun j => iblk m c 6 t (ix1 j)) :=
    funext fun k => first_layer (iblk m c 0 t) (iblk m c 1 t) (iblk m c 2 t) (iblk m c 3 t) (iblk m c 4 t) (iblk m c 5 t)
      (iblk m c 6 t) p k
  rw [h1]
  simp only [read_src m c t, read_tgt m c t, read_edge m c t, read_w1 m c t, read_b1 m c t, read_W1 m c t, read_β1 m c t,
    read_w2 m c t, read_b2 m c t, read_W2 m c t, read_β2 m c t]
  rfl

/-! ## Every entry of the result is some point's -/

/-- An index is in point `t`'s block iff each coordinate is in the block's range on its axis. -/
theorem mem_block (t : Fin cfg0.N) (i : S262144x128.Idx) :
    i ∈ ((cfg0.win 11).blk t).view.set ↔ ∀ a : Fin 2, win0_11.index t a * S512x128.size a ≤ (i a).val
      ∧ (i a).val < win0_11.index t a * S512x128.size a + S512x128.size a := by
  show i ∈ ((View.whole main_v0).slice (win0_11.rect t)).set ↔ _
  rw [View.set_slice_whole, Rect.mem_set_unit]
  exact Iff.rfl

/-- Row `r` is written by point `r / 512`: the 512 blocks of 512 rows tile the 262144 rows. -/
theorem covered (i : S262144x128.Idx) :
    ∃ t : Fin cfg0.N, (cfg0.win 11).flush t = true ∧ i ∈ ((cfg0.win 11).blk t).view.set := by
  have hi0 : (i 0).val < 262144 := (i 0).isLt
  have hi1 : (i 1).val < 128 := (i 1).isLt
  have hN : cfg0.N = 512 := N_0
  have hlt : (i 0).val / 512 < cfg0.N := by rw [hN]; omega
  obtain ⟨-, -, -, -, -, -, -, -, -, -, -, -, -, -, -, -, e0, e1⟩ := block_index ⟨(i 0).val / 512, hlt⟩
  refine ⟨⟨(i 0).val / 512, hlt⟩, flush0_11 _, ?_⟩
  rw [mem_block]
  intro a
  match a with
  | ⟨0, _⟩ =>
    show win0_11.index ⟨(i 0).val / 512, hlt⟩ (0 : Fin 2) * 512 ≤ (i 0).val
      ∧ (i 0).val < win0_11.index ⟨(i 0).val / 512, hlt⟩ (0 : Fin 2) * 512 + 512
    rw [e0]; show (i 0).val / 512 * 512 ≤ (i 0).val ∧ (i 0).val < (i 0).val / 512 * 512 + 512; omega
  | ⟨1, _⟩ =>
    show win0_11.index ⟨(i 0).val / 512, hlt⟩ (1 : Fin 2) * 128 ≤ (i 1).val
      ∧ (i 1).val < win0_11.index ⟨(i 0).val / 512, hlt⟩ (1 : Fin 2) * 128 + 128
    omega

/-- So after the last point the result array is the row function of the arrays, row by row. -/
theorem final (c : Dev nD) : (dats m 0 c).arrAt 11 cfg0.N = result m c :=
  (dats m 0 c).arrAt_eq_of_cover 11 (result m c) (fun t _ => flushed_eq m c t) covered

/-! ## The run -/

/-- Every fair execution of the kernel's program ends with the result array at the row function of the launch
    arrays, and the arguments as launched. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Cert.KernelIdeal.Value.run_blocks m ρ)

end Cert.KernelIdeal.Whole

end
-- ==== Proof.RefLayer1.lean ====
/-
  The reference's first layer, read at one entry.

  The reference builds its hidden row in thirty-two array operations: the three feature rows side by side, the same
  array seen as 48 groups of 8, each group's sum, mean, deviations, sum of squared deviations and spread, the
  deviations over the square root of the spread, the array seen as rows of 384 again, the per-channel scale and shift,
  the clamp at zero, the 384×128 contraction and the bias. Read at one row `r`, each of these is a function of row `r`
  of the operands alone, and the last is `RowSpec.hidden` with the scaling `bySqrt`. The lemmas below read the
  operations one stretch at a time, each at explicit coordinates; no algebraic law is used.
-/
import proofs.«174417_j15401752724192_1_alg».proof.Proof.Gen.ReferenceIdeal.Read
import proofs.«174417_j15401752724192_1_alg».proof.Proof.RowSpec
import Idealize.ShloMosaic.Lib.ValueIdx
import Idealize.ShloMosaic.Lib.Pipeline.Value
import Idealize.ShloMosaic.PureOps.Ideal.Laws

noncomputable section

open scoped BigOperators
open Idealize.ShloMosaic Idealize.ShloMosaic.ValueIdx

namespace Cert.ReferenceIdeal.Layers

open Cert.ReferenceIdeal Cert.ReferenceIdeal.Gen Cert.ReferenceIdeal.Read Cert.RowSpec

/-! ## The three rows side by side -/

/-- A column below 128 falls in the first operand. -/
theorem cat_fst (x0 x1 x2 : (⟨S262144x128, .f32⟩ : BufTy).Contents (Elt Ideal)) (r : Fin 262144) (c : Fin 384)
    (h : c.val < 128) :
    val_main_v0 (F := Ideal) x0 x1 x2 (ix2 r c) = x0 (ix2 r ⟨c.val, h⟩) := by
  unfold val_main_v0
  refine concatenate_apply_piece (1 : Fin S262144x384.rank)
    [⟨S262144x128, x0⟩, ⟨S262144x128, x1⟩, ⟨S262144x128, x2⟩]
    concatenates_S262144x128_S262144x128_S262144x128_S262144x384_d1 (ix2 r c) 0 (show 0 < 3 by omega) S262144x128 x0 rfl rfl 0 rfl
    (ix2 r ⟨c.val, h⟩) ?_ ?_
  · intro b hb
    match b with
    | ⟨0, _⟩ => rfl
    | ⟨1, _⟩ => exact absurd rfl hb
  · show 0 + c.val = c.val
    omega

/-- A column from 128 to 255 falls in the second operand, 128 columns in. -/
theorem cat_snd (x0 x1 x2 : (⟨S262144x128, .f32⟩ : BufTy).Contents (Elt Ideal)) (r : Fin 262144) (c : Fin 384)
    (h : ¬ c.val < 128) (h' : c.val < 256) :
    val_main_v0 (F := Ideal) x0 x1 x2 (ix2 r c) = x1 (ix2 r ⟨c.val - 128, by omega⟩) := by
  unfold val_main_v0
  refine concatenate_apply_piece (1 : Fin S262144x384.rank)
    [⟨S262144x128, x0⟩, ⟨S262144x128, x1⟩, ⟨S262144x128, x2⟩]
    concatenates_S262144x128_S262144x128_S262144x128_S262144x384_d1 (ix2 r c) 1 (show 1 < 3 by omega) S262144x128 x1 rfl rfl 128 rfl
    (ix2 r ⟨c.val - 128, by omega⟩) ?_ ?_
  · intro b hb
    match b with
    | ⟨0, _⟩ => rfl
    | ⟨1, _⟩ => exact absurd rfl hb
  · show 128 + (c.val - 128) = c.val
    omega

/-- A column from 256 on falls in the third operand, 256 columns in. -/
theorem cat_trd (x0 x1 x2 : (⟨S262144x128, .f32⟩ : BufTy).Contents (Elt Ideal)) (r : Fin 262144) (c : Fin 384)
    (h' : ¬ c.val < 256) :
    val_main_v0 (F := Ideal) x0 x1 x2 (ix2 r c) = x2 (ix2 r ⟨c.val - 256, by have := c.isLt; omega⟩) := by
  unfold val_main_v0
  refine concatenate_apply_piece (1 : Fin S262144x384.rank)
    [⟨S262144x128, x0⟩, ⟨S262144x128, x1⟩, ⟨S262144x128, x2⟩]
    concatenates_S262144x128_S262144x128_S262144x128_S262144x384_d1 (ix2 r c) 2 (show 2 < 3 by omega) S262144x128 x2 rfl rfl 256 rfl
    (ix2 r ⟨c.val - 256, by have := c.isLt; omega⟩) ?_ ?_
  · intro b hb
    match b with
    | ⟨0, _⟩ => rfl
    | ⟨1, _⟩ => exact absurd rfl hb
  · show 256 + (c.val - 256) = c.val
    omega

/-- The joined array at row `r` is the three operands' rows `r` side by side. -/
theorem cat_at (x0 x1 x2 : (⟨S262144x128, .f32⟩ : BufTy).Contents (Elt Ideal)) (r : Fin 262144) (c : Fin 384) :
    val_main_v0 (F := Ideal) x0 x1 x2 (ix2 r c)
      = cat (fun c => x0 (ix2 r c)) (fun c => x1 (ix2 r c)) (fun c => x2 (ix2 r c)) c := by
  unfold cat
  by_cases h : c.val < 128
  · rw [dif_pos h]; exact cat_fst x0 x1 x2 r c h
  · rw [dif_neg h]
    by_cases h' : c.val < 256
    · rw [dif_pos h']; exact cat_snd x0 x1 x2 r c h h'
    · rw [dif_neg h']; exact cat_trd x0 x1 x2 r c h'

/-- Row `r` of the three inputs side by side, read by group and lane. -/
abbrev grouped (x0 x1 x2 : (⟨S262144x128, .f32⟩ : BufTy).Contents (Elt Ideal)) (r : Fin 262144) : Fin 48 → Fin 8 → EReal :=
  fun g k => cat (fun c => x0 (ix2 r c)) (fun c => x1 (ix2 r c)) (fun c => x2 (ix2 r c)) (ch384 g k)

/-- Entry `(r, g, k)` of the grouped view is entry `(r, 8 g + k)` of the joined array. -/
theorem idx_v1 (r : Fin 262144) (g : Fin 48) (k : Fin 8) : idx_main_v1 (ix3 r g k) = ix2 r (ch384 g k) := by
  have hr := r.isLt; have hg := g.isLt; have hk := k.isLt
  funext a
  refine Fin.ext ?_
  match a with
  | ⟨0, _⟩ => show ((r.val * 48 + g.val) * 8 + k.val) / 384 = r.val; omega
  | ⟨1, _⟩ => show ((r.val * 48 + g.val) * 8 + k.val) % 384 = g.val * 8 + k.val; omega

/-- The grouped view at `(r, g, k)`. -/
theorem grouped_at (x0 x1 x2 : (⟨S262144x128, .f32⟩ : BufTy).Contents (Elt Ideal)) (r : Fin 262144) (g : Fin 48) (k : Fin 8) :
    val_main_v1 (F := Ideal) x0 x1 x2 (ix3 r g k) = grouped x0 x1 x2 r g k := by
  rw [val_main_v1_apply, idx_v1, cat_at]

/-- The `k`-th summand of group `(r, g)` is entry `(r, g, k)`. -/
theorem idx_v2 (r : Fin 262144) (g : Fin 48) (k : Fin 8) : idx_main_v2 (ix2 r g) k = ix3 r g k := by
  funext a
  match a with
  | ⟨0, _⟩ => rfl
  | ⟨1, _⟩ => rfl
  | ⟨2, _⟩ => rfl

/-- The group's sum (the sum starts from zero). -/
theorem sum_at (x0 x1 x2 : (⟨S262144x128, .f32⟩ : BufTy).Contents (Elt Ideal)) (r : Fin 262144) (g : Fin 48) :
    val_main_v2 (F := Ideal) x0 x1 x2 (ix2 r g) = ∑ k : Fin 8, grouped x0 x1 x2 r g k := by
  rw [val_main_v2_apply, val_main_cst_apply, Ideal.ofBits_def, Ideal.ofBits_zero_f32, zero_add]
  refine Finset.sum_congr rfl fun k _ => ?_
  rw [idx_v2, grouped_at]

/-! ## The group norm over 48 groups of 8 -/

/-- The sums, one per group, with a unit axis appended. -/
theorem idx_v3 (r : Fin 262144) (g : Fin 48) (z : Fin 1) : idx_main_v3 (ix3 r g z) = ix2 r g := by
  funext a
  match a with
  | ⟨0, _⟩ => rfl
  | ⟨1, _⟩ => rfl

/-- The mean is spread back over the group's eight lanes. -/
theorem idx_v6 (r : Fin 262144) (g : Fin 48) (k : Fin 8) : idx_main_v6 (ix3 r g k) = ix3 r g (0 : Fin 1) := by
  funext a
  match a with
  | ⟨0, _⟩ => rfl
  | ⟨1, _⟩ => rfl
  | ⟨2, _⟩ => rfl

/-- The group's mean: its sum over the group size. -/
theorem mean_at (x0 x1 x2 : (⟨S262144x128, .f32⟩ : BufTy).Contents (Elt Ideal)) (r : Fin 262144) (g : Fin 48) (z : Fin 1) :
    val_main_v5 (F := Ideal) x0 x1 x2 (ix3 r g z) = gmean (grouped x0 x1 x2 r) g := by
  rw [val_main_v5_apply, val_main_v3_apply, idx_v3, sum_at, val_main_v4_apply, val_main_cst_0_apply, Ideal.hostDivf_def,
    Ideal.ofBits_def]
  rfl

/-- An entry's deviation from its group's mean. -/
theorem dev_at (x0 x1 x2 : (⟨S262144x128, .f32⟩ : BufTy).Contents (Elt Ideal)) (r : Fin 262144) (g : Fin 48) (k : Fin 8) :
    val_main_v7 (F := Ideal) x0 x1 x2 (ix3 r g k) = gdev (grouped x0 x1 x2 r) g k := by
  rw [val_main_v7_apply, grouped_at, val_main_v6_apply, idx_v6, mean_at, Ideal.subf_def]
  rfl

/-- The `k`-th squared deviation of group `(r, g)` sits at `(r, g, k)`. -/
theorem idx_v9 (r : Fin 262144) (g : Fin 48) (k : Fin 8) : idx_main_v9 (ix2 r g) k = ix3 r g k := by
  funext a
  match a with
  | ⟨0, _⟩ => rfl
  | ⟨1, _⟩ => rfl
  | ⟨2, _⟩ => rfl

/-- The sums of squares, one per group, with a unit axis appended. -/
theorem idx_v10 (r : Fin 262144) (g : Fin 48) (z : Fin 1) : idx_main_v10 (ix3 r g z) = ix2 r g := by
  funext a
  match a with
  | ⟨0, _⟩ => rfl
  | ⟨1, _⟩ => rfl

/-- The group's spread: the mean of the squared deviations, plus `ε`. -/
theorem spread_at (x0 x1 x2 : (⟨S262144x128, .f32⟩ : BufTy).Contents (Elt Ideal)) (r : Fin 262144) (g : Fin 48) (z : Fin 1) :
    val_main_v16 (F := Ideal) x0 x1 x2 (ix3 r g z) = gspread (grouped x0 x1 x2 r) g := by
  have hsum : val_main_v9 (F := Ideal) x0 x1 x2 (ix2 r g)
      = ∑ k : Fin 8, gdev (grouped x0 x1 x2 r) g k * gdev (grouped x0 x1 x2 r) g k := by
    rw [val_main_v9_apply, val_main_cst_1_apply, Ideal.ofBits_def, Ideal.ofBits_zero_f32, zero_add]
    refine Finset.sum_congr rfl fun k _ => ?_
    rw [idx_v9, val_main_v8_apply, dev_at, Ideal.mulf_def]
  rw [val_main_v16_apply, val_main_v12_apply, val_main_v10_apply, idx_v10, hsum, val_main_v11_apply, val_main_cst_2_apply,
    val_main_v15_apply, val_main_cst_3_apply, Ideal.hostDivf_def, Ideal.addf_def, Ideal.ofBits_def, Ideal.ofBits_def]
  rfl

/-- The mean spread over the lanes, a second time. -/
theorem idx_v13 (r : Fin 262144) (g : Fin 48) (k : Fin 8) : idx_main_v13 (ix3 r g k) = ix3 r g (0 : Fin 1) := by
  funext a
  match a with
  | ⟨0, _⟩ => rfl
  | ⟨1, _⟩ => rfl
  | ⟨2, _⟩ => rfl

/-- The square root of the spread is spread over the group's eight lanes. -/
theorem idx_v18 (r : Fin 262144) (g : Fin 48) (k : Fin 8) : idx_main_v18 (ix3 r g k) = ix3 r g (0 : Fin 1) := by
  funext a
  match a with
  | ⟨0, _⟩ => rfl
  | ⟨1, _⟩ => rfl
  | ⟨2, _⟩ => rfl

/-- The normalised entry: the deviation over the square root of the spread. -/
theorem normed_at (x0 x1 x2 : (⟨S262144x128, .f32⟩ : BufTy).Contents (Elt Ideal)) (r : Fin 262144) (g : Fin 48) (k : Fin 8) :
    val_main_v19 (F := Ideal) x0 x1 x2 (ix3 r g k)
      = bySqrt (gdev (grouped x0 x1 x2 r) g k) (gspread (grouped x0 x1 x2 r) g) := by
  have hdev : val_main_v14 (F := Ideal) x0 x1 x2 (ix3 r g k) = gdev (grouped x0 x1 x2 r) g k := by
    rw [val_main_v14_apply, grouped_at, val_main_v13_apply, idx_v13, mean_at, Ideal.subf_def]
    rfl
  rw [val_main_v19_apply, hdev, val_main_v18_apply, idx_v18, val_main_v17_apply, spread_at, Ideal.hostDivf_def,
    Ideal.hostUnary_sqrt_def]
  rfl

/-! ## Back to rows of 384: scale, shift, clamp -/

/-- Entry `(r, c)` of the rows of 384 is entry `(r, c / 8, c % 8)` of the grouped view. -/
theorem idx_v20 (r : Fin 262144) (c : Fin 384) : idx_main_v20 (ix2 r c) = ix3 r (grp384 c) (lane c) := by
  have hr := r.isLt; have hc := c.isLt
  funext a
  refine Fin.ext ?_
  match a with
  | ⟨0, _⟩ => show (r.val * 384 + c.val) / 384 = r.val; omega
  | ⟨1, _⟩ => show (r.val * 384 + c.val) / 8 % 48 = c.val / 8; omega
  | ⟨2, _⟩ => show (r.val * 384 + c.val) % 8 = c.val % 8; omega

/-- A channel is the channel of its group and lane. -/
theorem ch384_grp_lane (c : Fin 384) : ch384 (grp384 c) (lane c) = c := by
  refine Fin.ext ?_
  show c.val / 8 * 8 + c.val % 8 = c.val
  omega

/-- The scale vector is repeated on every row. -/
theorem idx_v22 (r : Fin 262144) (c : Fin 384) : idx_main_v21 (idx_main_v22 (ix2 r c)) = ix1 c := by
  funext a
  match a with
  | ⟨0, _⟩ => rfl

/-- The shift vector is repeated on every row. -/
theorem idx_v25 (r : Fin 262144) (c : Fin 384) : idx_main_v24 (idx_main_v25 (ix2 r c)) = ix1 c := by
  funext a
  match a with
  | ⟨0, _⟩ => rfl

/-- The clamped entry of channel `c`: the activation of its group and lane. -/
theorem act_at (x0 x1 x2 : (⟨S262144x128, .f32⟩ : BufTy).Contents (Elt Ideal)) (x3 x4 : (⟨S384, .f32⟩ : BufTy).Contents (Elt Ideal))
    (r : Fin 262144) (c : Fin 384) :
    val_main_v27 (F := Ideal) x0 x1 x2 x3 x4 (ix2 r c)
      = act bySqrt (grouped x0 x1 x2 r) (fun g k => x3 (ix1 (ch384 g k))) (fun g k => x4 (ix1 (ch384 g k)))
          (grp384 c) (lane c) := by
  rw [val_main_v27_apply, val_main_v26_apply, val_main_v23_apply, val_main_v20_apply, idx_v20, normed_at,
    val_main_v22_apply, val_main_v21_apply, idx_v22, val_main_v25_apply, val_main_v24_apply, idx_v25,
    val_main_call0_v0_apply, val_main_call0_cst_apply, Ideal.ofBits_def, Ideal.ofBits_zero_f32,
    Ideal.maximumf_def, Ideal.addf_def, Ideal.mulf_def]
  unfold act
  beta_reduce
  rw [ch384_grp_lane]

/-! ## The 384×128 layer and its bias -/

/-- The contraction's left factor: row `r`, channel `k`. -/
theorem lidx_v28 (r : Fin 262144) (j : Fin 128) (k : Fin 384) : lidx_main_v28 (ix2 r j) k = ix2 r k := by
  funext a
  match a with
  | ⟨0, _⟩ => rfl
  | ⟨1, _⟩ => rfl

/-- The contraction's right factor: channel `k`, column `j`. -/
theorem ridx_v28 (r : Fin 262144) (j : Fin 128) (k : Fin 384) : ridx_main_v28 (ix2 r j) k = ix2 k j := by
  funext a
  match a with
  | ⟨0, _⟩ => rfl
  | ⟨1, _⟩ => rfl

/-- The bias vector is repeated on every row. -/
theorem idx_v30 (r : Fin 262144) (j : Fin 128) : idx_main_v29 (idx_main_v30 (ix2 r j)) = ix1 j := by
  funext a
  match a with
  | ⟨0, _⟩ => rfl

/-- The reference's first layer at row `r`, column `j`, is the row function `hidden` (scaling over the square root) of
    row `r` of the three inputs, the scale and shift vectors, the weight matrix and the bias. -/
theorem first_layer (x0 x1 x2 : (⟨S262144x128, .f32⟩ : BufTy).Contents (Elt Ideal)) (x3 x4 : (⟨S384, .f32⟩ : BufTy).Contents (Elt Ideal))
    (x5 : (⟨S384x128, .f32⟩ : BufTy).Contents (Elt Ideal)) (x6 : (⟨S128, .f32⟩ : BufTy).Contents (Elt Ideal))
    (r : Fin 262144) (j : Fin 128) :
    val_main_v31 (F := Ideal) x0 x1 x2 x3 x4 x5 x6 (ix2 r j)
      = hidden bySqrt (fun c => x0 (ix2 r c)) (fun c => x1 (ix2 r c)) (fun c => x2 (ix2 r c))
          (fun c => x3 (ix1 c)) (fun c => x4 (ix1 c)) (fun c j => x5 (ix2 c j)) (fun j => x6 (ix1 j)) j := by
  rw [val_main_v31_apply, val_main_v28_apply, val_main_v30_apply, val_main_v29_apply, idx_v30, Ideal.addf_def]
  unfold Cert.RowSpec.hidden
  refine congrArg (· + x6 (ix1 j)) (Finset.sum_congr rfl fun k _ => ?_)
  rw [lidx_v28, ridx_v28, act_at]

end Cert.ReferenceIdeal.Layers
end
-- ==== Proof.RefLayer2.lean ====
/-
  The reference's second layer at one row `r` and one output column `j`.

  The first layer's output row is cut into 16 groups of 8 channels (channel `8 g + k` is entry `k` of group `g`).
  Each group is normalised: its mean is the sum of its eight entries over eight, an entry's deviation is the entry
  minus that mean, the group's spread is the mean of the squared deviations plus `ε`, and the deviation is divided by
  the square root of the spread. The normalised entry is scaled and shifted channel by channel and clamped at zero;
  the clamped row is contracted with the 128×128 weights, the bias is added, and the edge row is added back.
  Every step below is the same step read at explicit coordinates; no algebraic law is used.
-/
import proofs.«174417_j15401752724192_1_alg».proof.Proof.Gen.ReferenceIdeal.Read
import proofs.«174417_j15401752724192_1_alg».proof.Proof.RowSpec
import Idealize.ShloMosaic.Lib.ValueIdx
import Idealize.ShloMosaic.PureOps.Ideal
import Idealize.ShloMosaic.PureOps.Ideal.Laws

noncomputable section

open Idealize.ShloMosaic Idealize.ShloMosaic.ValueIdx
open scoped BigOperators

namespace Cert.ReferenceIdeal.Layers

open Cert.ReferenceIdeal Cert.ReferenceIdeal.Gen Cert.ReferenceIdeal.Read Cert.RowSpec

section
variable (x0 x1 x2 : (⟨S262144x128, .f32⟩ : BufTy).Contents (Elt Ideal)) (x3 x4 : (⟨S384, .f32⟩ : BufTy).Contents (Elt Ideal))
  (x5 : (⟨S384x128, .f32⟩ : BufTy).Contents (Elt Ideal)) (x6 x7 x8 : (⟨S128, .f32⟩ : BufTy).Contents (Elt Ideal))
  (x9 : (⟨S128x128, .f32⟩ : BufTy).Contents (Elt Ideal)) (x10 : (⟨S128, .f32⟩ : BufTy).Contents (Elt Ideal))

/-- Row `r` of the first layer's output, in 16 groups of 8: entry `k` of group `g` is channel `8 g + k`. -/
abbrev grouped16 (r : Fin 262144) : Fin 16 → Fin 8 → EReal :=
  fun g k => val_main_v31 (F := Ideal) x0 x1 x2 x3 x4 x5 x6 (ix2 r (ch128 g k))

/-- The row cut into groups: position `(r, g, k)` of the reshaped array is channel `8 g + k` of row `r`, since
    `((16 r + g) 8 + k) / 128 = r` and `((16 r + g) 8 + k) % 128 = 8 g + k` for `g < 16`, `k < 8`. -/
theorem grouped_entry (r : Fin 262144) (g : Fin 16) (k : Fin 8) :
    val_main_v32 (F := Ideal) x0 x1 x2 x3 x4 x5 x6 (ix3 r g k) = grouped16 x0 x1 x2 x3 x4 x5 x6 r g k := by
  rw [val_main_v32_apply]
  refine congrArg (val_main_v31 (F := Ideal) x0 x1 x2 x3 x4 x5 x6) (funext fun a => Fin.ext ?_)
  have hr := r.isLt; have hg := g.isLt; have hk := k.isLt
  match a with
  | ⟨0, _⟩ => show ((r.val * 16 + g.val) * 8 + k.val) / 128 = r.val; omega
  | ⟨1, _⟩ => show ((r.val * 16 + g.val) * 8 + k.val) % 128 = g.val * 8 + k.val; omega

/-- A group's sum: the reduction over the last axis starts from the zero pattern, which is `0`, and adds the group's
    eight entries. -/
theorem group_sum (r : Fin 262144) (g : Fin 16) :
    val_main_v33 (F := Ideal) x0 x1 x2 x3 x4 x5 x6 (ix2 r g) = ∑ k : Fin 8, grouped16 x0 x1 x2 x3 x4 x5 x6 r g k := by
  rw [val_main_v33_apply, val_main_cst_4_apply, Ideal.ofBits_def, Ideal.ofBits_zero_f32, zero_add]
  refine Finset.sum_congr rfl fun k _ => ?_
  rw [← grouped_entry]
  exact congrArg (val_main_v32 (F := Ideal) x0 x1 x2 x3 x4 x5 x6)
    (funext fun a => Fin.ext (by match a with | ⟨0, _⟩ => rfl | ⟨1, _⟩ => rfl | ⟨2, _⟩ => rfl))

/-- A group's mean, kept on a unit axis: the group's sum over the pattern of `8.0`. -/
theorem group_mean (r : Fin 262144) (g : Fin 16) (z : Fin 1) :
    val_main_v36 (F := Ideal) x0 x1 x2 x3 x4 x5 x6 (ix3 r g z) = gmean (grouped16 x0 x1 x2 x3 x4 x5 x6 r) g := by
  have e : idx_main_v34 (ix3 r g z) = ix2 r g :=
    funext fun a => Fin.ext (by match a with | ⟨0, _⟩ => rfl | ⟨1, _⟩ => rfl)
  rw [val_main_v36_apply, Ideal.hostDivf_def, val_main_v34_apply, e, group_sum, val_main_v35_apply,
    val_main_cst_5_apply, Ideal.ofBits_def]
  unfold gmean eight
  rfl

/-- An entry's deviation from its group's mean, as the variance uses it: the mean is spread back over the group's
    eight places and subtracted. -/
theorem deviation_for_spread (r : Fin 262144) (g : Fin 16) (k : Fin 8) :
    val_main_v38 (F := Ideal) x0 x1 x2 x3 x4 x5 x6 (ix3 r g k) = gdev (grouped16 x0 x1 x2 x3 x4 x5 x6 r) g k := by
  have e : idx_main_v37 (ix3 r g k) = ix3 r g (0 : Fin 1) :=
    funext fun a => Fin.ext (by match a with | ⟨0, _⟩ => rfl | ⟨1, _⟩ => rfl | ⟨2, _⟩ => rfl)
  rw [val_main_v38_apply, Ideal.subf_def, grouped_entry, val_main_v37_apply, e, group_mean]
  unfold gdev
  rfl

/-- The same deviation, computed a second time for the quotient. -/
theorem deviation (r : Fin 262144) (g : Fin 16) (k : Fin 8) :
    val_main_v45 (F := Ideal) x0 x1 x2 x3 x4 x5 x6 (ix3 r g k) = gdev (grouped16 x0 x1 x2 x3 x4 x5 x6 r) g k := by
  have e : idx_main_v44 (ix3 r g k) = ix3 r g (0 : Fin 1) :=
    funext fun a => Fin.ext (by match a with | ⟨0, _⟩ => rfl | ⟨1, _⟩ => rfl | ⟨2, _⟩ => rfl)
  rw [val_main_v45_apply, Ideal.subf_def, grouped_entry, val_main_v44_apply, e, group_mean]
  unfold gdev
  rfl

/-- The sum of a group's squared deviations: again a reduction from `0` over the last axis. -/
theorem group_sum_sq (r : Fin 262144) (g : Fin 16) :
    val_main_v40 (F := Ideal) x0 x1 x2 x3 x4 x5 x6 (ix2 r g)
      = ∑ k : Fin 8, gdev (grouped16 x0 x1 x2 x3 x4 x5 x6 r) g k * gdev (grouped16 x0 x1 x2 x3 x4 x5 x6 r) g k := by
  rw [val_main_v40_apply, val_main_cst_6_apply, Ideal.ofBits_def, Ideal.ofBits_zero_f32, zero_add]
  refine Finset.sum_congr rfl fun k _ => ?_
  have e : idx_main_v40 (ix2 r g) k = ix3 r g k :=
    funext fun a => Fin.ext (by match a with | ⟨0, _⟩ => rfl | ⟨1, _⟩ => rfl | ⟨2, _⟩ => rfl)
  rw [e, val_main_v39_apply, Ideal.mulf_def, deviation_for_spread]

/-- A group's spread, kept on a unit axis: the sum of squares over the pattern of `8.0`, plus the pattern of `ε`. -/
theorem group_spread (r : Fin 262144) (g : Fin 16) (z : Fin 1) :
    val_main_v47 (F := Ideal) x0 x1 x2 x3 x4 x5 x6 (ix3 r g z) = gspread (grouped16 x0 x1 x2 x3 x4 x5 x6 r) g := by
  have e : idx_main_v41 (ix3 r g z) = ix2 r g :=
    funext fun a => Fin.ext (by match a with | ⟨0, _⟩ => rfl | ⟨1, _⟩ => rfl)
  rw [val_main_v47_apply, Ideal.addf_def, val_main_v43_apply, Ideal.hostDivf_def, val_main_v41_apply, e, group_sum_sq,
    val_main_v42_apply, val_main_cst_7_apply, Ideal.ofBits_def, val_main_v46_apply, val_main_cst_8_apply, Ideal.ofBits_def]
  unfold gspread eight eps
  rfl

/-- The normalised entry: the deviation over the square root of the spread, the spread read back from its unit axis. -/
theorem normalised (r : Fin 262144) (g : Fin 16) (k : Fin 8) :
    val_main_v50 (F := Ideal) x0 x1 x2 x3 x4 x5 x6 (ix3 r g k)
      = bySqrt (gdev (grouped16 x0 x1 x2 x3 x4 x5 x6 r) g k) (gspread (grouped16 x0 x1 x2 x3 x4 x5 x6 r) g) := by
  have e : idx_main_v49 (ix3 r g k) = ix3 r g (0 : Fin 1) :=
    funext fun a => Fin.ext (by match a with | ⟨0, _⟩ => rfl | ⟨1, _⟩ => rfl | ⟨2, _⟩ => rfl)
  rw [val_main_v50_apply, Ideal.hostDivf_def, deviation, val_main_v49_apply, e, val_main_v48_apply,
    Ideal.hostUnary_sqrt_def, group_spread]
  unfold bySqrt
  rfl

/-- A channel is entry `c % 8` of group `c / 8`: `8 (c / 8) + c % 8 = c`. -/
theorem ch128_grp128_lane (c : Fin 128) : ch128 (grp128 c) (lane c) = c :=
  Fin.ext (by show c.val / 8 * 8 + c.val % 8 = c.val; omega)

/-- The groups laid back into a row: channel `c` of row `r` is position `(r, c / 8, c % 8)`, since
    `(128 r + c) / 128 = r`, `(128 r + c) / 8 % 16 = c / 8` and `(128 r + c) % 8 = c % 8` for `c < 128`. -/
theorem ungrouped_entry (r : Fin 262144) (c : Fin 128) :
    val_main_v51 (F := Ideal) x0 x1 x2 x3 x4 x5 x6 (ix2 r c)
      = val_main_v50 (F := Ideal) x0 x1 x2 x3 x4 x5 x6 (ix3 r (grp128 c) (lane c)) := by
  rw [val_main_v51_apply]
  refine congrArg (val_main_v50 (F := Ideal) x0 x1 x2 x3 x4 x5 x6) (funext fun a => Fin.ext ?_)
  have hr := r.isLt; have hc := c.isLt
  match a with
  | ⟨0, _⟩ => show (r.val * 128 + c.val) / 128 = r.val; omega
  | ⟨1, _⟩ => show (r.val * 128 + c.val) / 8 % 16 = c.val / 8; omega
  | ⟨2, _⟩ => show (r.val * 128 + c.val) % 8 = c.val % 8; omega

/-- The clamped entry: the normalised entry times the channel's scale, plus the channel's shift, and the maximum of
    that with the zero pattern, which is `0`. The scale and shift rows are read at channel `c = 8 (c / 8) + c % 8`. -/
theorem clamped (r : Fin 262144) (c : Fin 128) :
    val_main_v58 (F := Ideal) x0 x1 x2 x3 x4 x5 x6 x7 x8 (ix2 r c)
      = act bySqrt (grouped16 x0 x1 x2 x3 x4 x5 x6 r) (fun g k => x7 (ix1 (ch128 g k))) (fun g k => x8 (ix1 (ch128 g k)))
          (grp128 c) (lane c) := by
  have e7 : idx_main_v52 (idx_main_v53 (ix2 r c)) = ix1 (ch128 (grp128 c) (lane c)) := by
    rw [ch128_grp128_lane]
    exact funext fun a => Fin.ext (by match a with | ⟨0, _⟩ => rfl)
  have e8 : idx_main_v55 (idx_main_v56 (ix2 r c)) = ix1 (ch128 (grp128 c) (lane c)) := by
    rw [ch128_grp128_lane]
    exact funext fun a => Fin.ext (by match a with | ⟨0, _⟩ => rfl)
  rw [val_main_v58_apply, Ideal.maximumf_def, val_main_v57_apply, Ideal.addf_def, val_main_v54_apply, Ideal.mulf_def,
    ungrouped_entry, normalised, val_main_v53_apply, val_main_v52_apply, e7, val_main_v56_apply, val_main_v55_apply, e8,
    val_main_call1_v0_apply, val_main_call1_cst_apply, Ideal.ofBits_def, Ideal.ofBits_zero_f32]
  unfold act
  rfl

end

/-- The second layer at `(r, j)`: the clamped row contracted with column `j` of the weights, plus the bias at `j`,
    plus the edge row's entry at `(r, j)`. -/
theorem second_layer (x0 x1 x2 : (⟨S262144x128, .f32⟩ : BufTy).Contents (Elt Ideal)) (x3 x4 : (⟨S384, .f32⟩ : BufTy).Contents (Elt Ideal))
    (x5 : (⟨S384x128, .f32⟩ : BufTy).Contents (Elt Ideal)) (x6 x7 x8 : (⟨S128, .f32⟩ : BufTy).Contents (Elt Ideal))
    (x9 : (⟨S128x128, .f32⟩ : BufTy).Contents (Elt Ideal)) (x10 : (⟨S128, .f32⟩ : BufTy).Contents (Elt Ideal))
    (r : Fin 262144) (j : Fin 128) :
    val_main_v63 (F := Ideal) x0 x1 x2 x3 x4 x5 x6 x7 x8 x9 x10 (ix2 r j)
      = outRow bySqrt (fun c => val_main_v31 (F := Ideal) x0 x1 x2 x3 x4 x5 x6 (ix2 r c)) (fun c => x7 (ix1 c)) (fun c => x8 (ix1 c))
          (fun c j => x9 (ix2 c j)) (fun j => x10 (ix1 j)) (fun c => x2 (ix2 r c)) j := by
  have eb : idx_main_v60 (idx_main_v61 (ix2 r j)) = ix1 j :=
    funext fun a => Fin.ext (by match a with | ⟨0, _⟩ => rfl)
  have el : ∀ c : Fin 128, lidx_main_v59 (ix2 r j) c = ix2 r c := fun c =>
    funext fun a => Fin.ext (by match a with | ⟨0, _⟩ => rfl | ⟨1, _⟩ => rfl)
  have er : ∀ c : Fin 128, ridx_main_v59 (ix2 r j) c = ix2 c j := fun c =>
    funext fun a => Fin.ext (by match a with | ⟨0, _⟩ => rfl | ⟨1, _⟩ => rfl)
  rw [val_main_v63_apply, Ideal.addf_def, val_main_v62_apply, Ideal.addf_def, val_main_v59_apply, val_main_v61_apply,
    val_main_v60_apply, eb]
  unfold outRow
  refine congrArg (· + x2 (ix2 r j)) (congrArg (· + x10 (ix1 j)) (Finset.sum_congr rfl fun c _ => ?_))
  rw [el, er, clamped]

end Cert.ReferenceIdeal.Layers

end
-- ==== Proof.RefArray.lean ====
/-
  What the reference computes, as one array: its last stage, read row by row through its two layers (RefLayer1,
  RefLayer2), is the row function of the arguments' rows with each deviation scaled over the square root of its
  group's spread.
-/
import proofs.«174417_j15401752724192_1_alg».proof.Proof.Gen.ReferenceIdeal.Read
import proofs.«174417_j15401752724192_1_alg».proof.Proof.EdgeArray
import proofs.«174417_j15401752724192_1_alg».proof.Proof.RefLayer1
import proofs.«174417_j15401752724192_1_alg».proof.Proof.RefLayer2
import Idealize.ShloMosaic.Lib.ValueIdx

noncomputable section

namespace Cert.ReferenceIdeal.Whole

open Cert.ReferenceIdeal Cert.ReferenceIdeal.Gen Cert.ReferenceIdeal.Read Cert.ReferenceIdeal.Layers
open Idealize.ShloMosaic Idealize.ShloMosaic.ValueIdx Cert.RowSpec

/-- The reference's last stage is the row function of its arguments, row by row, with the deviation scaled over the
    square root of the spread: its two layers, one on top of the other. -/
theorem result_eq (x0 x1 x2 : (⟨S262144x128, .f32⟩ : BufTy).Contents (Elt Ideal)) (x3 x4 : (⟨S384, .f32⟩ : BufTy).Contents (Elt Ideal))
    (x5 : (⟨S384x128, .f32⟩ : BufTy).Contents (Elt Ideal)) (x6 x7 x8 : (⟨S128, .f32⟩ : BufTy).Contents (Elt Ideal))
    (x9 : (⟨S128x128, .f32⟩ : BufTy).Contents (Elt Ideal)) (x10 : (⟨S128, .f32⟩ : BufTy).Contents (Elt Ideal)) :
    val_main_v63 (F := Ideal) x0 x1 x2 x3 x4 x5 x6 x7 x8 x9 x10 = edgeArray bySqrt x0 x1 x2 x3 x4 x5 x6 x7 x8 x9 x10 := by
  funext i
  obtain ⟨r, j, rfl⟩ : ∃ (r : Fin 262144) (j : Fin 128), i = ix2 r j := ⟨i 0, i 1, eq_ix2 i⟩
  refine (second_layer x0 x1 x2 x3 x4 x5 x6 x7 x8 x9 x10 r j).trans ?_
  have h1 : (fun c : Fin 128 => val_main_v31 (F := Ideal) x0 x1 x2 x3 x4 x5 x6 (ix2 r c))
      = hidden bySqrt (fun c => x0 (ix2 r c)) (fun c => x1 (ix2 r c)) (fun c => x2 (ix2 r c))
          (fun c => x3 (ix1 c)) (fun c => x4 (ix1 c)) (fun c j => x5 (ix2 c j)) (fun j => x6 (ix1 j)) :=
    funext fun c => first_layer x0 x1 x2 x3 x4 x5 x6 r c
  rw [h1]
  rfl

end Cert.ReferenceIdeal.Whole

end
-- ==== Proof.lean ====
/-
  The edge block of a message-passing network, fused into one kernel, against its plain array program.

  Each of 262144 edges carries three 128-feature rows (source, target, edge). The block concatenates them, normalises
  the 384 channels in 48 groups of 8 (subtract the group's mean, scale by the group's spread `v` = mean squared
  deviation plus `ε`), applies a per-channel scale and shift, clamps at zero, multiplies by a 384×128 matrix and adds a
  bias; does the same again over 16 groups of 8 with a 128×128 matrix; and adds the edge row back. The kernel does
  this 512 rows at a time; at the exact values its narrowings to a shorter float format are the identity and its two
  matrix products are plain sums, so row by row it is the same function of the same rows.

  The two programs differ in one operation: the kernel multiplies a deviation by the reciprocal square root of the
  spread, the array program divides it by the square root. On the extended reals these agree exactly when the spread
  is positive, and it always is: a square is nonnegative even at the infinities, so the mean of squares is, and `ε` is
  a positive real (RowSpec). So the claim holds for all inputs, finite or not, and the precondition is not opened.
-/
import proofs.«174417_j15401752724192_1_alg».proof.Defs
import proofs.«174417_j15401752724192_1_alg».proof.Proof.Gen.Kernel
import proofs.«174417_j15401752724192_1_alg».proof.Proof.Gen.Kernel.Skeleton
import proofs.«174417_j15401752724192_1_alg».proof.Proof.Gen.Kernel.Launch
import proofs.«174417_j15401752724192_1_alg».proof.Proof.Gen.Kernel.Points
import proofs.«174417_j15401752724192_1_alg».proof.Proof.Gen.Kernel.Frame
import proofs.«174417_j15401752724192_1_alg».proof.Proof.Gen.KernelIdeal
import proofs.«174417_j15401752724192_1_alg».proof.Proof.Gen.KernelIdeal.Skeleton
import proofs.«174417_j15401752724192_1_alg».proof.Proof.Gen.KernelIdeal.Launch
import proofs.«174417_j15401752724192_1_alg».proof.Proof.Gen.KernelIdeal.Points
import proofs.«174417_j15401752724192_1_alg».proof.Proof.Gen.KernelIdeal.Frame
import proofs.«174417_j15401752724192_1_alg».proof.Proof.Gen.ReferenceIdeal
import proofs.«174417_j15401752724192_1_alg».proof.Proof.Gen.Pre_finite_inputs
import proofs.«174417_j15401752724192_1_alg».proof.Proof.Gen.KernelIdeal.Value
import proofs.«174417_j15401752724192_1_alg».proof.Proof.Gen.ReferenceIdeal.Run
import proofs.«174417_j15401752724192_1_alg».proof.Proof.Gen.ReferenceIdeal.Read
import proofs.«174417_j15401752724192_1_alg».proof.Proof.KernelArray
import proofs.«174417_j15401752724192_1_alg».proof.Proof.RefArray
import Idealize.ShloMosaic.Adequacy
import Idealize.ShloMosaic.Init

noncomputable section

namespace Cert.Proof

open Idealize.ShloMosaic Idealize.ShloMosaic.TcCoe Idealize.SL.Sem Cert.RowSpec

/-- The kernel as printed runs and leaves its arguments alone. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a chain of array operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The kernel was read on the extended reals as it stands: no operation was rewritten. -/
theorem preserves : Cert.preserves_Kernel_KernelIdeal := trivial

/-- From memories that agree on the eleven arguments both programs end, the kernel with the result array at the row
    function scaled by the reciprocal square root, the reference at the row function scaled over the square root; the
    spread is positive, so they are one array. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.ReferenceIdeal.Read.val_main_v63_eq, Cert.ReferenceIdeal.Whole.result_eq, a0, a1, a2, a3, a4, a5, a6, a7, a8, a9, a10,
    edgeArray_bySqrt]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
